-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x12x256 : Shape := ⟨4, ![16, 512, 12, 256]⟩
abbrev S256x256 : Shape := ⟨2, ![256, 256]⟩
abbrev S256 : Shape := ⟨1, ![256]⟩
abbrev S_ : Shape := ⟨0, ![]⟩

class Facts : Prop where
  bcast_S_S16x512x12x256 : S_.BroadcastsInDim S16x512x12x256 (![] : Fin 0 → Fin S16x512x12x256.rank)
  reducesTo_S16x512x12x256_S_d0_1_2_3 : S16x512x12x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x512x12x256 .f32) (main_arg1 : FVec F S256x256 .f32) (main_arg2 : FVec F S256 .f32) : IVec S_ 1 :=
  let main_v0 : FVec F S16x512x12x256 .f32 := Host.absf main_arg0
  let main_cst : FVec F S_ .f32 := constant S_ .f32 0x7F800000#32
  let main_v1 : FVec F S16x512x12x256 .f32 := broadcastInDim S16x512x12x256 ![] bcast_S_S16x512x12x256 main_cst
  let main_v2 : IVec S16x512x12x256 1 := cmpf .olt main_v0 main_v1
  let main_c : IVec S_ 1 := constantI S_ 1 1#1
  let main_v3 : IVec S_ 1 := (fun x v => Host.reduce IntOp.andi x v reducesTo_S16x512x12x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x512x12x256 : Shape := ⟨4, ![16, 512, 12, 256]⟩
abbrev S256x256 : Shape := ⟨2, ![256, 256]⟩
abbrev S256 : Shape := ⟨1, ![256]⟩
abbrev S1x256 : Shape := ⟨2, ![1, 256]⟩
abbrev S1x512x12x256 : Shape := ⟨4, ![1, 512, 12, 256]⟩
abbrev S1x512x1x256 : Shape := ⟨4, ![1, 512, 1, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16x512x12x256, .f32⟩
  | .hbm, ⟨1, _⟩ => ⟨S256x256, .f32⟩
  | .hbm, ⟨2, _⟩ => ⟨S256, .f32⟩
  | .hbm, ⟨3, _⟩ => ⟨S256x256, .bf16⟩
  | .hbm, ⟨4, _⟩ => ⟨S1x256, .f32⟩
  | .hbm, ⟨5, _⟩ => ⟨S16x512x12x256, .f32⟩
  | .local _ .vmem, ⟨0, _⟩ => ⟨S1x512x12x256, .f32⟩
  | .local _ .vmem, ⟨1, _⟩ => ⟨S1x512x12x256, .f32⟩
  | .local _ .vmem, ⟨2, _⟩ => ⟨S256x256, .bf16⟩
  | .local _ .vmem, ⟨3, _⟩ => ⟨S1x256, .f32⟩
  | .local _ .vmem, ⟨4, _⟩ => ⟨S1x512x12x256, .f32⟩
  | .local _ .vmem, ⟨5, _⟩ => ⟨S1x512x12x256, .f32⟩
  | _, _ => ⟨S16x512x12x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x12x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x12x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S256 : S1x256.ShapeCasts S256
  inb_S1x512x12x256_S1x512x1x256_0_0_0_0 : ∀ a, (![0, 0, 0, 0] : Fin 4 → Nat) a + S1x512x1x256.size a ≤ S1x512x12x256.size a
  h_S1x512x1x256 : 0 < S1x512x1x256.numel
  shapeCasts_S1x512x1x256_S512x256 : S1x512x1x256.ShapeCasts S512x256
  reduces_S512x512_S512 : S512x512.Reduces [1] S512
  shapeCasts_S512_S512x1 : S512.ShapeCasts S512x1
  broadcasts_S512x1_S512x512 : S512x1.Broadcasts S512x512
  broadcasts_S512x1_S512x256 : S512x1.Broadcasts S512x256
  broadcasts_S1x256_S512x256 : S1x256.Broadcasts S512x256
  shapeCasts_S512x256_S1x512x1x256 : S512x256.ShapeCasts S1x512x1x256
  inb_S1x512x12x256_S1x512x1x256_0_0_1_0 : ∀ a, (![0, 0, 1, 0] : Fin 4 → Nat) a + S1x512x1x256.size a ≤ S1x512x12x256.size a
  inb_S1x512x12x256_S1x512x1x256_0_0_2_0 : ∀ a, (![0, 0, 2, 0] : Fin 4 → Nat) a + S1x512x1x256.size a ≤ S1x512x12x256.size a
  inb_S1x512x12x256_S1x512x1x256_0_0_3_0 : ∀ a, (![0, 0, 3, 0] : Fin 4 → Nat) a + S1x512x1x256.size a ≤ S1x512x12x256.size a
  inb_S1x512x12x256_S1x512x1x256_0_0_4_0 : ∀ a, (![0, 0, 4, 0] : Fin 4 → Nat) a + S1x512x1x256.size a ≤ S1x512x12x256.size a
  inb_S1x512x12x256_S1x512x1x256_0_0_5_0 : ∀ a, (![0, 0, 5, 0] : Fin 4 → Nat) a + S1x512x1x256.size a ≤ S1x512x12x256.size a
  inb_S1x512x12x256_S1x512x1x256_0_0_6_0 : ∀ a, (![0, 0, 6, 0] : Fin 4 → Nat) a + S1x512x1x256.size a ≤ S1x512x12x256.size a
  inb_S1x512x12x256_S1x512x1x256_0_0_7_0 : ∀ a, (![0, 0, 7, 0] : Fin 4 → Nat) a + S1x512x1x256.size a ≤ S1x512x12x256.size a
  inb_S1x512x12x256_S1x512x1x256_0_0_8_0 : ∀ a, (![0, 0, 8, 0] : Fin 4 → Nat) a + S1x512x1x256.size a ≤ S1x512x12x256.size a
  inb_S1x512x12x256_S1x512x1x256_0_0_9_0 : ∀ a, (![0, 0, 9, 0] : Fin 4 → Nat) a + S1x512x1x256.size a ≤ S1x512x12x256.size a
  inb_S1x512x12x256_S1x512x1x256_0_0_10_0 : ∀ a, (![0, 0, 10, 0] : Fin 4 → Nat) a + S1x512x1x256.size a ≤ S1x512x12x256.size a
  inb_S1x512x12x256_S1x512x1x256_0_0_11_0 : ∀ a, (![0, 0, 11, 0] : Fin 4 → Nat) a + S1x512x1x256.size a ≤ S1x512x12x256.size a
  dot_S512x256_S512x256_S512x512_1_1_0_0_n_n_wf : DotDims.WF S512x256 S512x256 S512x512 [1] [1] [0] [0] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x12x256.size a ≤ S16x512x12x256.size a
  hwx0_0 : ∀ i : grid0.Coords, EltTy.bits .f32 = 32 ∨ (Rect.block (s := S16x512x12x256) S1x512x12x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x12x256.size a ≤ S16x512x12x256.size a
  hwx0_3 : ∀ i : grid0.Coords, EltTy.bits .f32 = 32 ∨ (Rect.block (s := S16x512x12x256) S1x512x12x256.size (cc0_transform_3 i) (hinb0_3 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S1x512x12x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x12x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x12x256 : Shape := ⟨4, ![16, 512, 12, 256]⟩
abbrev S256x256 : Shape := ⟨2, ![256, 256]⟩
abbrev S256 : Shape := ⟨1, ![256]⟩
abbrev S_ : Shape := ⟨0, ![]⟩
abbrev S16x512x1x256 : Shape := ⟨4, ![16, 512, 1, 256]⟩
abbrev S16x512x256 : Shape := ⟨3, ![16, 512, 256]⟩
abbrev S16x512x512 : Shape := ⟨3, ![16, 512, 512]⟩
abbrev S16x512 : Shape := ⟨2, ![16, 512]⟩
abbrev S16x512x1 : Shape := ⟨3, ![16, 512, 1]⟩
abbrev S1x1x256 : Shape := ⟨3, ![1, 1, 256]⟩

abbrev nBuf : Space → Nat
  | .hbm => 378
  | .vmem => 0
  | .smem => 0
  | _ => 0

abbrev hbmTy0_0 (i : Nat) : BufTy := match i % 128 with
  | 0 => ⟨S16x512x12x256, .f32⟩
  | 1 => ⟨S256x256, .f32⟩
  | 2 => ⟨S256, .f32⟩
  | 3 => ⟨S_, .f32⟩
  | 4 => ⟨S_, .f32⟩
  | 5 => ⟨S16x512x1x256, .f32⟩
  | 6 => ⟨S16x512x256, .f32⟩
  | 7 => ⟨S16x512x512, .f32⟩
  | 8 => ⟨S16x512x512, .f32⟩
  | 9 => ⟨S16x512x512, .f32⟩
  | 10 => ⟨S_, .f32⟩
  | 11 => ⟨S16x512x512, .f32⟩
  | 12 => ⟨S16x512x512, .f32⟩
  | 13 => ⟨S_, .f32⟩
  | 14 => ⟨S16x512, .f32⟩
  | 15 => ⟨S_, .f32⟩
  | 16 => ⟨S16x512, .f32⟩
  | 17 => ⟨S16x512, .f32⟩
  | 18 => ⟨S16x512x1, .f32⟩
  | 19 => ⟨S16x512x512, .f32⟩
  | 20 => ⟨S16x512x512, .f32⟩
  | 21 => ⟨S16x512x512, .f32⟩
  | 22 => ⟨S_, .f32⟩
  | 23 => ⟨S16x512, .f32⟩
  | 24 => ⟨S16x512x1, .f32⟩
  | 25 => ⟨S16x512x512, .f32⟩
  | 26 => ⟨S16x512x512, .f32⟩
  | 27 => ⟨S16x512x256, .f32⟩
  | 28 => ⟨S16x512x256, .f32⟩
  | 29 => ⟨S1x1x256, .f32⟩
  | 30 => ⟨S16x512x256, .f32⟩
  | 31 => ⟨S16x512x256, .f32⟩
  | 32 => ⟨S_, .f32⟩
  | 33 => ⟨S16x512x256, .f32⟩
  | 34 => ⟨S16x512x256, .f32⟩
  | 35 => ⟨S16x512x1x256, .f32⟩
  | 36 => ⟨S16x512x256, .f32⟩
  | 37 => ⟨S16x512x512, .f32⟩
  | 38 => ⟨S16x512x512, .f32⟩
  | 39 => ⟨S16x512x512, .f32⟩
  | 40 => ⟨S_, .f32⟩
  | 41 => ⟨S16x512x512, .f32⟩
  | 42 => ⟨S16x512x512, .f32⟩
  | 43 => ⟨S_, .f32⟩
  | 44 => ⟨S16x512, .f32⟩
  | 45 => ⟨S_, .f32⟩
  | 46 => ⟨S16x512, .f32⟩
  | 47 => ⟨S16x512, .f32⟩
  | 48 => ⟨S16x512x1, .f32⟩
  | 49 => ⟨S16x512x512, .f32⟩
  | 50 => ⟨S16x512x512, .f32⟩
  | 51 => ⟨S16x512x512, .f32⟩
  | 52 => ⟨S_, .f32⟩
  | 53 => ⟨S16x512, .f32⟩
  | 54 => ⟨S16x512x1, .f32⟩
  | 55 => ⟨S16x512x512, .f32⟩
  | 56 => ⟨S16x512x512, .f32⟩
  | 57 => ⟨S16x512x256, .f32⟩
  | 58 => ⟨S16x512x256, .f32⟩
  | 59 => ⟨S1x1x256, .f32⟩
  | 60 => ⟨S16x512x256, .f32⟩
  | 61 => ⟨S16x512x256, .f32⟩
  | 62 => ⟨S_, .f32⟩
  | 63 => ⟨S16x512x256, .f32⟩
  | 64 => ⟨S16x512x256, .f32⟩
  | 65 => ⟨S16x512x1x256, .f32⟩
  | 66 => ⟨S16x512x256, .f32⟩
  | 67 => ⟨S16x512x512, .f32⟩
  | 68 => ⟨S16x512x512, .f32⟩
  | 69 => ⟨S16x512x512, .f32⟩
  | 70 => ⟨S_, .f32⟩
  | 71 => ⟨S16x512x512, .f32⟩
  | 72 => ⟨S16x512x512, .f32⟩
  | 73 => ⟨S_, .f32⟩
  | 74 => ⟨S16x512, .f32⟩
  | 75 => ⟨S_, .f32⟩
  | 76 => ⟨S16x512, .f32⟩
  | 77 => ⟨S16x512, .f32⟩
  | 78 => ⟨S16x512x1, .f32⟩
  | 79 => ⟨S16x512x512, .f32⟩
  | 80 => ⟨S16x512x512, .f32⟩
  | 81 => ⟨S16x512x512, .f32⟩
  | 82 => ⟨S_, .f32⟩
  | 83 => ⟨S16x512, .f32⟩
  | 84 => ⟨S16x512x1, .f32⟩
  | 85 => ⟨S16x512x512, .f32⟩
  | 86 => ⟨S16x512x512, .f32⟩
  | 87 => ⟨S16x512x256, .f32⟩
  | 88 => ⟨S16x512x256, .f32⟩
  | 89 => ⟨S1x1x256, .f32⟩
  | 90 => ⟨S16x512x256, .f32⟩
  | 91 => ⟨S16x512x256, .f32⟩
  | 92 => ⟨S_, .f32⟩
  | 93 => ⟨S16x512x256, .f32⟩
  | 94 => ⟨S16x512x256, .f32⟩
  | 95 => ⟨S16x512x1x256, .f32⟩
  | 96 => ⟨S16x512x256, .f32⟩
  | 97 => ⟨S16x512x512, .f32⟩
  | 98 => ⟨S16x512x512, .f32⟩
  | 99 => ⟨S16x512x512, .f32⟩
  | 100 => ⟨S_, .f32⟩
  | 101 => ⟨S16x512x512, .f32⟩
  | 102 => ⟨S16x512x512, .f32⟩
  | 103 => ⟨S_, .f32⟩
  | 104 => ⟨S16x512, .f32⟩
  | 105 => ⟨S_, .f32⟩
  | 106 => ⟨S16x512, .f32⟩
  | 107 => ⟨S16x512, .f32⟩
  | 108 => ⟨S16x512x1, .f32⟩
  | 109 => ⟨S16x512x512, .f32⟩
  | 110 => ⟨S16x512x512, .f32⟩
  | 111 => ⟨S16x512x512, .f32⟩
  | 112 => ⟨S_, .f32⟩
  | 113 => ⟨S16x512, .f32⟩
  | 114 => ⟨S16x512x1, .f32⟩
  | 115 => ⟨S16x512x512, .f32⟩
  | 116 => ⟨S16x512x512, .f32⟩
  | 117 => ⟨S16x512x256, .f32⟩
  | 118 => ⟨S16x512x256, .f32⟩
  | 119 => ⟨S1x1x256, .f32⟩
  | 120 => ⟨S16x512x256, .f32⟩
  | 121 => ⟨S16x512x256, .f32⟩
  | 122 => ⟨S_, .f32⟩
  | 123 => ⟨S16x512x256, .f32⟩
  | 124 => ⟨S16x512x256, .f32⟩
  | 125 => ⟨S16x512x1x256, .f32⟩
  | 126 => ⟨S16x512x256, .f32⟩
  | 127 => ⟨S16x512x512, .f32⟩
  | _ => ⟨S16x512x12x256, .f32⟩

abbrev hbmTy0_1 (i : Nat) : BufTy := match i % 128 with
  | 0 => ⟨S16x512x512, .f32⟩
  | 1 => ⟨S16x512x512, .f32⟩
  | 2 => ⟨S_, .f32⟩
  | 3 => ⟨S16x512x512, .f32⟩
  | 4 => ⟨S16x512x512, .f32⟩
  | 5 => ⟨S_, .f32⟩
  | 6 => ⟨S16x512, .f32⟩
  | 7 => ⟨S_, .f32⟩
  | 8 => ⟨S16x512, .f32⟩
  | 9 => ⟨S16x512, .f32⟩
  | 10 => ⟨S16x512x1, .f32⟩
  | 11 => ⟨S16x512x512, .f32⟩
  | 12 => ⟨S16x512x512, .f32⟩
  | 13 => ⟨S16x512x512, .f32⟩
  | 14 => ⟨S_, .f32⟩
  | 15 => ⟨S16x512, .f32⟩
  | 16 => ⟨S16x512x1, .f32⟩
  | 17 => ⟨S16x512x512, .f32⟩
  | 18 => ⟨S16x512x512, .f32⟩
  | 19 => ⟨S16x512x256, .f32⟩
  | 20 => ⟨S16x512x256, .f32⟩
  | 21 => ⟨S1x1x256, .f32⟩
  | 22 => ⟨S16x512x256, .f32⟩
  | 23 => ⟨S16x512x256, .f32⟩
  | 24 => ⟨S_, .f32⟩
  | 25 => ⟨S16x512x256, .f32⟩
  | 26 => ⟨S16x512x256, .f32⟩
  | 27 => ⟨S16x512x1x256, .f32⟩
  | 28 => ⟨S16x512x256, .f32⟩
  | 29 => ⟨S16x512x512, .f32⟩
  | 30 => ⟨S16x512x512, .f32⟩
  | 31 => ⟨S16x512x512, .f32⟩
  | 32 => ⟨S_, .f32⟩
  | 33 => ⟨S16x512x512, .f32⟩
  | 34 => ⟨S16x512x512, .f32⟩
  | 35 => ⟨S_, .f32⟩
  | 36 => ⟨S16x512, .f32⟩
  | 37 => ⟨S_, .f32⟩
  | 38 => ⟨S16x512, .f32⟩
  | 39 => ⟨S16x512, .f32⟩
  | 40 => ⟨S16x512x1, .f32⟩
  | 41 => ⟨S16x512x512, .f32⟩
  | 42 => ⟨S16x512x512, .f32⟩
  | 43 => ⟨S16x512x512, .f32⟩
  | 44 => ⟨S_, .f32⟩
  | 45 => ⟨S16x512, .f32⟩
  | 46 => ⟨S16x512x1, .f32⟩
  | 47 => ⟨S16x512x512, .f32⟩
  | 48 => ⟨S16x512x512, .f32⟩
  | 49 => ⟨S16x512x256, .f32⟩
  | 50 => ⟨S16x512x256, .f32⟩
  | 51 => ⟨S1x1x256, .f32⟩
  | 52 => ⟨S16x512x256, .f32⟩
  | 53 => ⟨S16x512x256, .f32⟩
  | 54 => ⟨S_, .f32⟩
  | 55 => ⟨S16x512x256, .f32⟩
  | 56 => ⟨S16x512x256, .f32⟩
  | 57 => ⟨S16x512x1x256, .f32⟩
  | 58 => ⟨S16x512x256, .f32⟩
  | 59 => ⟨S16x512x512, .f32⟩
  | 60 => ⟨S16x512x512, .f32⟩
  | 61 => ⟨S16x512x512, .f32⟩
  | 62 => ⟨S_, .f32⟩
  | 63 => ⟨S16x512x512, .f32⟩
  | 64 => ⟨S16x512x512, .f32⟩
  | 65 => ⟨S_, .f32⟩
  | 66 => ⟨S16x512, .f32⟩
  | 67 => ⟨S_, .f32⟩
  | 68 => ⟨S16x512, .f32⟩
  | 69 => ⟨S16x512, .f32⟩
  | 70 => ⟨S16x512x1, .f32⟩
  | 71 => ⟨S16x512x512, .f32⟩
  | 72 => ⟨S16x512x512, .f32⟩
  | 73 => ⟨S16x512x512, .f32⟩
  | 74 => ⟨S_, .f32⟩
  | 75 => ⟨S16x512, .f32⟩
  | 76 => ⟨S16x512x1, .f32⟩
  | 77 => ⟨S16x512x512, .f32⟩
  | 78 => ⟨S16x512x512, .f32⟩
  | 79 => ⟨S16x512x256, .f32⟩
  | 80 => ⟨S16x512x256, .f32⟩
  | 81 => ⟨S1x1x256, .f32⟩
  | 82 => ⟨S16x512x256, .f32⟩
  | 83 => ⟨S16x512x256, .f32⟩
  | 84 => ⟨S_, .f32⟩
  | 85 => ⟨S16x512x256, .f32⟩
  | 86 => ⟨S16x512x256, .f32⟩
  | 87 => ⟨S16x512x1x256, .f32⟩
  | 88 => ⟨S16x512x256, .f32⟩
  | 89 => ⟨S16x512x512, .f32⟩
  | 90 => ⟨S16x512x512, .f32⟩
  | 91 => ⟨S16x512x512, .f32⟩
  | 92 => ⟨S_, .f32⟩
  | 93 => ⟨S16x512x512, .f32⟩
  | 94 => ⟨S16x512x512, .f32⟩
  | 95 => ⟨S_, .f32⟩
  | 96 => ⟨S16x512, .f32⟩
  | 97 => ⟨S_, .f32⟩
  | 98 => ⟨S16x512, .f32⟩
  | 99 => ⟨S16x512, .f32⟩
  | 100 => ⟨S16x512x1, .f32⟩
  | 101 => ⟨S16x512x512, .f32⟩
  | 102 => ⟨S16x512x512, .f32⟩
  | 103 => ⟨S16x512x512, .f32⟩
  | 104 => ⟨S_, .f32⟩
  | 105 => ⟨S16x512, .f32⟩
  | 106 => ⟨S16x512x1, .f32⟩
  | 107 => ⟨S16x512x512, .f32⟩
  | 108 => ⟨S16x512x512, .f32⟩
  | 109 => ⟨S16x512x256, .f32⟩
  | 110 => ⟨S16x512x256, .f32⟩
  | 111 => ⟨S1x1x256, .f32⟩
  | 112 => ⟨S16x512x256, .f32⟩
  | 113 => ⟨S16x512x256, .f32⟩
  | 114 => ⟨S_, .f32⟩
  | 115 => ⟨S16x512x256, .f32⟩
  | 116 => ⟨S16x512x256, .f32⟩
  | 117 => ⟨S16x512x1x256, .f32⟩
  | 118 => ⟨S16x512x256, .f32⟩
  | 119 => ⟨S16x512x512, .f32⟩
  | 120 => ⟨S16x512x512, .f32⟩
  | 121 => ⟨S16x512x512, .f32⟩
  | 122 => ⟨S_, .f32⟩
  | 123 => ⟨S16x512x512, .f32⟩
  | 124 => ⟨S16x512x512, .f32⟩
  | 125 => ⟨S_, .f32⟩
  | 126 => ⟨S16x512, .f32⟩
  | 127 => ⟨S_, .f32⟩
  | _ => ⟨S16x512x12x256, .f32⟩

abbrev hbmTy0_2 (i : Nat) : BufTy := match i % 128 with
  | 0 => ⟨S16x512, .f32⟩
  | 1 => ⟨S16x512, .f32⟩
  | 2 => ⟨S16x512x1, .f32⟩
  | 3 => ⟨S16x512x512, .f32⟩
  | 4 => ⟨S16x512x512, .f32⟩
  | 5 => ⟨S16x512x512, .f32⟩
  | 6 => ⟨S_, .f32⟩
  | 7 => ⟨S16x512, .f32⟩
  | 8 => ⟨S16x512x1, .f32⟩
  | 9 => ⟨S16x512x512, .f32⟩
  | 10 => ⟨S16x512x512, .f32⟩
  | 11 => ⟨S16x512x256, .f32⟩
  | 12 => ⟨S16x512x256, .f32⟩
  | 13 => ⟨S1x1x256, .f32⟩
  | 14 => ⟨S16x512x256, .f32⟩
  | 15 => ⟨S16x512x256, .f32⟩
  | 16 => ⟨S_, .f32⟩
  | 17 => ⟨S16x512x256, .f32⟩
  | 18 => ⟨S16x512x256, .f32⟩
  | 19 => ⟨S16x512x1x256, .f32⟩
  | 20 => ⟨S16x512x256, .f32⟩
  | 21 => ⟨S16x512x512, .f32⟩
  | 22 => ⟨S16x512x512, .f32⟩
  | 23 => ⟨S16x512x512, .f32⟩
  | 24 => ⟨S_, .f32⟩
  | 25 => ⟨S16x512x512, .f32⟩
  | 26 => ⟨S16x512x512, .f32⟩
  | 27 => ⟨S_, .f32⟩
  | 28 => ⟨S16x512, .f32⟩
  | 29 => ⟨S_, .f32⟩
  | 30 => ⟨S16x512, .f32⟩
  | 31 => ⟨S16x512, .f32⟩
  | 32 => ⟨S16x512x1, .f32⟩
  | 33 => ⟨S16x512x512, .f32⟩
  | 34 => ⟨S16x512x512, .f32⟩
  | 35 => ⟨S16x512x512, .f32⟩
  | 36 => ⟨S_, .f32⟩
  | 37 => ⟨S16x512, .f32⟩
  | 38 => ⟨S16x512x1, .f32⟩
  | 39 => ⟨S16x512x512, .f32⟩
  | 40 => ⟨S16x512x512, .f32⟩
  | 41 => ⟨S16x512x256, .f32⟩
  | 42 => ⟨S16x512x256, .f32⟩
  | 43 => ⟨S1x1x256, .f32⟩
  | 44 => ⟨S16x512x256, .f32⟩
  | 45 => ⟨S16x512x256, .f32⟩
  | 46 => ⟨S_, .f32⟩
  | 47 => ⟨S16x512x256, .f32⟩
  | 48 => ⟨S16x512x256, .f32⟩
  | 49 => ⟨S16x512x1x256, .f32⟩
  | 50 => ⟨S16x512x256, .f32⟩
  | 51 => ⟨S16x512x512, .f32⟩
  | 52 => ⟨S16x512x512, .f32⟩
  | 53 => ⟨S16x512x512, .f32⟩
  | 54 => ⟨S_, .f32⟩
  | 55 => ⟨S16x512x512, .f32⟩
  | 56 => ⟨S16x512x512, .f32⟩
  | 57 => ⟨S_, .f32⟩
  | 58 => ⟨S16x512, .f32⟩
  | 59 => ⟨S_, .f32⟩
  | 60 => ⟨S16x512, .f32⟩
  | 61 => ⟨S16x512, .f32⟩
  | 62 => ⟨S16x512x1, .f32⟩
  | 63 => ⟨S16x512x512, .f32⟩
  | 64 => ⟨S16x512x512, .f32⟩
  | 65 => ⟨S16x512x512, .f32⟩
  | 66 => ⟨S_, .f32⟩
  | 67 => ⟨S16x512, .f32⟩
  | 68 => ⟨S16x512x1, .f32⟩
  | 69 => ⟨S16x512x512, .f32⟩
  | 70 => ⟨S16x512x512, .f32⟩
  | 71 => ⟨S16x512x256, .f32⟩
  | 72 => ⟨S16x512x256, .f32⟩
  | 73 => ⟨S1x1x256, .f32⟩
  | 74 => ⟨S16x512x256, .f32⟩
  | 75 => ⟨S16x512x256, .f32⟩
  | 76 => ⟨S_, .f32⟩
  | 77 => ⟨S16x512x256, .f32⟩
  | 78 => ⟨S16x512x256, .f32⟩
  | 79 => ⟨S16x512x1x256, .f32⟩
  | 80 => ⟨S16x512x256, .f32⟩
  | 81 => ⟨S16x512x512, .f32⟩
  | 82 => ⟨S16x512x512, .f32⟩
  | 83 => ⟨S16x512x512, .f32⟩
  | 84 => ⟨S_, .f32⟩
  | 85 => ⟨S16x512x512, .f32⟩
  | 86 => ⟨S16x512x512, .f32⟩
  | 87 => ⟨S_, .f32⟩
  | 88 => ⟨S16x512, .f32⟩
  | 89 => ⟨S_, .f32⟩
  | 90 => ⟨S16x512, .f32⟩
  | 91 => ⟨S16x512, .f32⟩
  | 92 => ⟨S16x512x1, .f32⟩
  | 93 => ⟨S16x512x512, .f32⟩
  | 94 => ⟨S16x512x512, .f32⟩
  | 95 => ⟨S16x512x512, .f32⟩
  | 96 => ⟨S_, .f32⟩
  | 97 => ⟨S16x512, .f32⟩
  | 98 => ⟨S16x512x1, .f32⟩
  | 99 => ⟨S16x512x512, .f32⟩
  | 100 => ⟨S16x512x512, .f32⟩
  | 101 => ⟨S16x512x256, .f32⟩
  | 102 => ⟨S16x512x256, .f32⟩
  | 103 => ⟨S1x1x256, .f32⟩
  | 104 => ⟨S16x512x256, .f32⟩
  | 105 => ⟨S16x512x256, .f32⟩
  | 106 => ⟨S_, .f32⟩
  | 107 => ⟨S16x512x256, .f32⟩
  | 108 => ⟨S16x512x256, .f32⟩
  | 109 => ⟨S16x512x1x256, .f32⟩
  | 110 => ⟨S16x512x1x256, .f32⟩
  | 111 => ⟨S16x512x1x256, .f32⟩
  | 112 => ⟨S16x512x1x256, .f32⟩
  | 113 => ⟨S16x512x1x256, .f32⟩
  | 114 => ⟨S16x512x1x256, .f32⟩
  | 115 => ⟨S16x512x1x256, .f32⟩
  | 116 => ⟨S16x512x1x256, .f32⟩
  | 117 => ⟨S16x512x1x256, .f32⟩
  | 118 => ⟨S16x512x1x256, .f32⟩
  | 119 => ⟨S16x512x1x256, .f32⟩
  | 120 => ⟨S16x512x1x256, .f32⟩
  | 121 => ⟨S16x512x12x256, .f32⟩
  | _ => ⟨S16x512x12x256, .f32⟩

abbrev hbmTy (i : Nat) : BufTy := match i / 128 with
  | 0 => hbmTy0_0 i
  | 1 => hbmTy0_1 i
  | 2 => hbmTy0_2 i
  | _ => ⟨S16x512x12x256, .f32⟩

abbrev bufTy : (tb : Table) → Fin (tcTables nBuf tb) → BufTy
  | .hbm, ⟨i, _⟩ => hbmTy i
  | _, _ => ⟨S16x512x12x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call1_cst : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call2_cst : Ref sig .tc := ⟨.hbm, 40, rfl⟩
abbrev main_call2_v0 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call3_cst : Ref sig .tc := ⟨.hbm, 62, rfl⟩
abbrev main_call3_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call4_cst : Ref sig .tc := ⟨.hbm, 70, rfl⟩
abbrev main_call4_v0 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call5_cst : Ref sig .tc := ⟨.hbm, 92, rfl⟩
abbrev main_call5_v0 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call6_cst : Ref sig .tc := ⟨.hbm, 100, rfl⟩
abbrev main_call6_v0 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_cst_10 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_11 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call7_cst : Ref sig .tc := ⟨.hbm, 122, rfl⟩
abbrev main_call7_v0 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call8_cst : Ref sig .tc := ⟨.hbm, 130, rfl⟩
abbrev main_call8_v0 : Ref sig .tc := ⟨.hbm, 131, rfl⟩
abbrev main_v98 : Ref sig .tc := ⟨.hbm, 132, rfl⟩
abbrev main_cst_12 : Ref sig .tc := ⟨.hbm, 133, rfl⟩
abbrev main_v99 : Ref sig .tc := ⟨.hbm, 134, rfl⟩
abbrev main_cst_13 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_14 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_call9_cst : Ref sig .tc := ⟨.hbm, 152, rfl⟩
abbrev main_call9_v0 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_call10_cst : Ref sig .tc := ⟨.hbm, 160, rfl⟩
abbrev main_call10_v0 : Ref sig .tc := ⟨.hbm, 161, rfl⟩
abbrev main_v121 : Ref sig .tc := ⟨.hbm, 162, rfl⟩
abbrev main_cst_15 : Ref sig .tc := ⟨.hbm, 163, rfl⟩
abbrev main_v122 : Ref sig .tc := ⟨.hbm, 164, rfl⟩
abbrev main_cst_16 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_17 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_call11_cst : Ref sig .tc := ⟨.hbm, 182, rfl⟩
abbrev main_call11_v0 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_call12_cst : Ref sig .tc := ⟨.hbm, 190, rfl⟩
abbrev main_call12_v0 : Ref sig .tc := ⟨.hbm, 191, rfl⟩
abbrev main_v144 : Ref sig .tc := ⟨.hbm, 192, rfl⟩
abbrev main_cst_18 : Ref sig .tc := ⟨.hbm, 193, rfl⟩
abbrev main_v145 : Ref sig .tc := ⟨.hbm, 194, rfl⟩
abbrev main_cst_19 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_20 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_call13_cst : Ref sig .tc := ⟨.hbm, 212, rfl⟩
abbrev main_call13_v0 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_call14_cst : Ref sig .tc := ⟨.hbm, 220, rfl⟩
abbrev main_call14_v0 : Ref sig .tc := ⟨.hbm, 221, rfl⟩
abbrev main_v167 : Ref sig .tc := ⟨.hbm, 222, rfl⟩
abbrev main_cst_21 : Ref sig .tc := ⟨.hbm, 223, rfl⟩
abbrev main_v168 : Ref sig .tc := ⟨.hbm, 224, rfl⟩
abbrev main_cst_22 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_cst_23 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_call15_cst : Ref sig .tc := ⟨.hbm, 242, rfl⟩
abbrev main_call15_v0 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_call16_cst : Ref sig .tc := ⟨.hbm, 250, rfl⟩
abbrev main_call16_v0 : Ref sig .tc := ⟨.hbm, 251, rfl⟩
abbrev main_v190 : Ref sig .tc := ⟨.hbm, 252, rfl⟩
abbrev main_cst_24 : Ref sig .tc := ⟨.hbm, 253, rfl⟩
abbrev main_v191 : Ref sig .tc := ⟨.hbm, 254, rfl⟩
abbrev main_cst_25 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_cst_26 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_call17_cst : Ref sig .tc := ⟨.hbm, 272, rfl⟩
abbrev main_call17_v0 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_call18_cst : Ref sig .tc := ⟨.hbm, 280, rfl⟩
abbrev main_call18_v0 : Ref sig .tc := ⟨.hbm, 281, rfl⟩
abbrev main_v213 : Ref sig .tc := ⟨.hbm, 282, rfl⟩
abbrev main_cst_27 : Ref sig .tc := ⟨.hbm, 283, rfl⟩
abbrev main_v214 : Ref sig .tc := ⟨.hbm, 284, rfl⟩
abbrev main_cst_28 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_cst_29 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_call19_cst : Ref sig .tc := ⟨.hbm, 302, rfl⟩
abbrev main_call19_v0 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_call20_cst : Ref sig .tc := ⟨.hbm, 310, rfl⟩
abbrev main_call20_v0 : Ref sig .tc := ⟨.hbm, 311, rfl⟩
abbrev main_v236 : Ref sig .tc := ⟨.hbm, 312, rfl⟩
abbrev main_cst_30 : Ref sig .tc := ⟨.hbm, 313, rfl⟩
abbrev main_v237 : Ref sig .tc := ⟨.hbm, 314, rfl⟩
abbrev main_cst_31 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_cst_32 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_call21_cst : Ref sig .tc := ⟨.hbm, 332, rfl⟩
abbrev main_call21_v0 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_call22_cst : Ref sig .tc := ⟨.hbm, 340, rfl⟩
abbrev main_call22_v0 : Ref sig .tc := ⟨.hbm, 341, rfl⟩
abbrev main_v259 : Ref sig .tc := ⟨.hbm, 342, rfl⟩
abbrev main_cst_33 : Ref sig .tc := ⟨.hbm, 343, rfl⟩
abbrev main_v260 : Ref sig .tc := ⟨.hbm, 344, rfl⟩
abbrev main_cst_34 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_cst_35 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_call23_cst : Ref sig .tc := ⟨.hbm, 362, rfl⟩
abbrev main_call23_v0 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_v285 : Ref sig .tc := ⟨.hbm, 373, rfl⟩
abbrev main_v286 : Ref sig .tc := ⟨.hbm, 374, rfl⟩
abbrev main_v287 : Ref sig .tc := ⟨.hbm, 375, rfl⟩
abbrev main_v288 : Ref sig .tc := ⟨.hbm, 376, rfl⟩
abbrev main_v289 : Ref sig .tc := ⟨.hbm, 377, rfl⟩

abbrev nD : Nat := 1
abbrev τ : Topo := Topo.v7x

variable {F : FTy → Type} [FloatOps F]

class Facts₀ : Prop where
  slices_S16x512x12x256_S16x512x1x256_0_0_0_0 : S16x512x12x256.Slices ![0, 0, 0, 0] S16x512x1x256
  shapeCasts_S16x512x1x256_S16x512x256 : S16x512x1x256.ShapeCasts S16x512x256
  bcast_S_S16x512x512 : S_.BroadcastsInDim S16x512x512 (![] : Fin 0 → Fin S16x512x512.rank)
  reducesTo_S16x512x512_S16x512_d2 : S16x512x512.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S256_S1x1x256_2 : S256.BroadcastsInDim S1x1x256 (![2] : Fin 1 → Fin S1x1x256.rank)
  bcast_S1x1x256_S16x512x256_0_1_2 : S1x1x256.BroadcastsInDim S16x512x256 (![0, 1, 2] : Fin 3 → Fin S16x512x256.rank)
  bcast_S_S16x512x256 : S_.BroadcastsInDim S16x512x256 (![] : Fin 0 → Fin S16x512x256.rank)
  slices_S16x512x12x256_S16x512x1x256_0_0_1_0 : S16x512x12x256.Slices ![0, 0, 1, 0] S16x512x1x256
  slices_S16x512x12x256_S16x512x1x256_0_0_2_0 : S16x512x12x256.Slices ![0, 0, 2, 0] S16x512x1x256
  slices_S16x512x12x256_S16x512x1x256_0_0_3_0 : S16x512x12x256.Slices ![0, 0, 3, 0] S16x512x1x256
  slices_S16x512x12x256_S16x512x1x256_0_0_4_0 : S16x512x12x256.Slices ![0, 0, 4, 0] S16x512x1x256
  slices_S16x512x12x256_S16x512x1x256_0_0_5_0 : S16x512x12x256.Slices ![0, 0, 5, 0] S16x512x1x256
  slices_S16x512x12x256_S16x512x1x256_0_0_6_0 : S16x512x12x256.Slices ![0, 0, 6, 0] S16x512x1x256
  slices_S16x512x12x256_S16x512x1x256_0_0_7_0 : S16x512x12x256.Slices ![0, 0, 7, 0] S16x512x1x256
  slices_S16x512x12x256_S16x512x1x256_0_0_8_0 : S16x512x12x256.Slices ![0, 0, 8, 0] S16x512x1x256
  slices_S16x512x12x256_S16x512x1x256_0_0_9_0 : S16x512x12x256.Slices ![0, 0, 9, 0] S16x512x1x256
  slices_S16x512x12x256_S16x512x1x256_0_0_10_0 : S16x512x12x256.Slices ![0, 0, 10, 0] S16x512x1x256
  slices_S16x512x12x256_S16x512x1x256_0_0_11_0 : S16x512x12x256.Slices ![0, 0, 11, 0] S16x512x1x256
  bcast_S16x512x256_S16x512x1x256_0_1_3 : S16x512x256.BroadcastsInDim S16x512x1x256 (![0, 1, 3] : Fin 3 → Fin S16x512x1x256.rank)
  concatenates_S16x512x1x256_S16x512x1x256_S16x512x1x256_S16x512x1x256_S16x512x1x256_S16x512x1x256_S16x512x1x256_S16x512x1x256_S16x512x1x256_S16x512x1x256_S16x512x1x256_S16x512x1x256_S16x512x12x256_d2 : Shape.Concatenates [S16x512x1x256, S16x512x1x256, S16x512x1x256, S16x512x1x256, S16x512x1x256, S16x512x1x256, S16x512x1x256, S16x512x1x256, S16x512x1x256, S16x512x1x256, S16x512x1x256, S16x512x1x256] S16x512x12x256 2
  dot_S16x512x256_S16x512x256_S16x512x512_2_2_1_1_0_0_wf : DotDims.WF S16x512x256 S16x512x256 S16x512x512 [2] [2] [1] [1] [0] [0]
  dot_S16x512x512_S16x512x256_S16x512x256_2_1_1_2_0_0_wf : DotDims.WF S16x512x512 S16x512x256 S16x512x256 [2] [1] [1] [2] [0] [0]
  dot_S16x512x256_S256x256_S16x512x256_2_0_01_1_n_n_wf : DotDims.WF S16x512x256 S256x256 S16x512x256 [2] [0] [0, 1] [1] [] []

variable [Facts₀]

def dot_S16x512x256_S16x512x256_S16x512x512_2_2_1_1_0_0 : DotDims S16x512x256 S16x512x256 S16x512x512 where
  lhsContracting := [2]
  rhsContracting := [2]
  lhsNonContracting := [1]
  rhsNonContracting := [1]
  lhsBatch := [0]
  rhsBatch := [0]
  wf := dot_S16x512x256_S16x512x256_S16x512x512_2_2_1_1_0_0_wf
def dot_S16x512x512_S16x512x256_S16x512x256_2_1_1_2_0_0 : DotDims S16x512x512 S16x512x256 S16x512x256 where
  lhsContracting := [2]
  rhsContracting := [1]
  lhsNonContracting := [1]
  rhsNonContracting := [2]
  lhsBatch := [0]
  rhsBatch := [0]
  wf := dot_S16x512x512_S16x512x256_S16x512x256_2_1_1_2_0_0_wf
def dot_S16x512x256_S256x256_S16x512x256_2_0_01_1_n_n : DotDims S16x512x256 S256x256 S16x512x256 where
  lhsContracting := [2]
  rhsContracting := [0]
  lhsNonContracting := [0, 1]
  rhsNonContracting := [1]
  lhsBatch := []
  rhsBatch := []
  wf := dot_S16x512x256_S256x256_S16x512x256_2_0_01_1_n_n_wf

class Facts : Prop extends Facts₀ where

variable [Facts]
-- ==== Proof.Spec.lean ====
/-
  One time step of the graph layer, as mathematics on the extended reals, in the two arrangements the two programs use.

  For node features x (nodes × features), weights w and bias b:
    scores  S n m = max (⟨x n, x m⟩ / 16) 0,
    weights E n m = exp (S n m - max_m S n m),
    output    n h = max ((∑_d H n d · w d h) + b h) 0,   H n d = ∑_m (E n m / ∑_m' E n m') · x m d.
  One arrangement scales every feature product by 1/16 before it is summed and divides the aggregated row by the row's
  sum of exponentials; the other divides the inner product by 16 and divides every exponential by the row's sum before
  aggregating. On REAL features the two agree: a finite sum of reals commutes with a real factor, every score is
  real, a row's maximum is one of its entries, so every exponential is a positive real and the row's sum a nonzero real.
  At an infinite feature the two arrangements need not agree (a product with an infinity does not distribute), which
  is why the statement is about real features.
-/
import Idealize.ShloMosaic.PureOps.Ideal
import Idealize.ShloMosaic.Lib.ValueIdx

noncomputable section

namespace Cert.Gcn

open Idealize.ShloMosaic Idealize.ShloMosaic.ValueIdx

/-! ## Real numbers inside the extended reals -/

/-- A finite sum of reals, taken in the extended reals, is the real sum. -/
theorem coe_sum {α : Type} (s : Finset α) (f : α → ℝ) : (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- The larger of two reals, taken in the extended reals, is the real maximum. -/
theorem coe_max (a b : ℝ) : max (a : EReal) (b : EReal) = ((max a b : ℝ) : EReal) :=
  (EReal.coe_strictMono.monotone.map_max).symm

/-- The running maximum from -∞ over a nonempty finite family of reals is a real. -/
theorem fold_max_coe {α : Type} (f : α → ℝ) (s : Finset α) :
    s = ∅ ∨ ∃ r : ℝ, s.fold max (⊥ : EReal) (fun i => (f i : EReal)) = (r : EReal) := by
  classical
  refine Finset.induction_on s (Or.inl rfl) ?_
  intro a s ha ih
  right
  rw [Finset.fold_insert ha]
  rcases ih with rfl | ⟨r, hr⟩
  · exact ⟨f a, by rw [Finset.fold_empty, max_bot_right]⟩
  · exact ⟨max (f a) r, by rw [hr, coe_max]⟩

/-! ## The time step's pieces -/

variable {ι δ η : Type} [Fintype ι] [Fintype δ]

/-- Scores, each feature product scaled by c before the sum. -/
def scoreK (c : EReal) (x : ι → δ → EReal) (n m : ι) : EReal := max (∑ d, (x n d * c) * x m d) 0

/-- Scores, the inner product divided by s. -/
def scoreR (s : EReal) (x : ι → δ → EReal) (n m : ι) : EReal := max (Ideal.div (∑ d, x n d * x m d) s) 0

/-- The scores both arrangements give on real features. -/
def scoreReal (xr : ι → δ → ℝ) (n m : ι) : ℝ := max ((∑ d, xr n d * xr m d) / 16) 0

/-- A row's maximum, running from -∞. -/
def rowMax (S : ι → ι → EReal) (n : ι) : EReal := (Finset.univ : Finset ι).fold max ⊥ (S n)

/-- The exponential of a score's difference to its row's maximum. -/
def expo (S : ι → ι → EReal) (n m : ι) : EReal := Ideal.exp (S n m - rowMax S n)

/-- A row's sum of exponentials. -/
def rowSum (S : ι → ι → EReal) (n : ι) : EReal := ∑ m, expo S n m

/-- Aggregation, the aggregated row divided by the row's sum. -/
def aggK (S : ι → ι → EReal) (x : ι → δ → EReal) (n : ι) (d : δ) : EReal :=
  Ideal.div (∑ m, expo S n m * x m d) (rowSum S n)

/-- Aggregation, every exponential divided by the row's sum first. -/
def aggR (S : ι → ι → EReal) (x : ι → δ → EReal) (n : ι) (d : δ) : EReal :=
  ∑ m, Ideal.div (expo S n m) (rowSum S n) * x m d

/-- The linear layer with bias, clipped below at zero. -/
def layer (H : ι → δ → EReal) (w : δ → η → EReal) (b : η → EReal) (n : ι) (h : η) : EReal :=
  max ((∑ d, H n d * w d h) + b h) 0

/-- The whole time step, first arrangement. -/
def gcnK (c : EReal) (x : ι → δ → EReal) (w : δ → η → EReal) (b : η → EReal) : ι → η → EReal :=
  layer (aggK (scoreK c x) x) w b

/-- The whole time step, second arrangement. -/
def gcnR (s : EReal) (x : ι → δ → EReal) (w : δ → η → EReal) (b : η → EReal) : ι → η → EReal :=
  layer (aggR (scoreR s x) x) w b

/-! ## The two arrangements agree on real features -/

/-- Scaling each product by 1/16 and summing gives the real score. -/
theorem scoreK_coe (xr : ι → δ → ℝ) (n m : ι) :
    scoreK ((1 / 16 : ℝ) : EReal) (fun n d => (xr n d : EReal)) n m = ((scoreReal xr n m : ℝ) : EReal) := by
  unfold scoreK scoreReal
  have h : ∀ d, ((xr n d : EReal) * ((1 / 16 : ℝ) : EReal)) * (xr m d : EReal) = ((xr n d * xr m d / 16 : ℝ) : EReal) := by
    intro d; rw [← EReal.coe_mul, ← EReal.coe_mul]; congr 1; ring
  simp only [h]
  rw [coe_sum, ← EReal.coe_zero, coe_max, Finset.sum_div]

/-- Dividing the inner product by 16 gives the same real score. -/
theorem scoreR_coe (xr : ι → δ → ℝ) (n m : ι) :
    scoreR ((16 : ℝ) : EReal) (fun n d => (xr n d : EReal)) n m = ((scoreReal xr n m : ℝ) : EReal) := by
  unfold scoreR scoreReal
  have h : ∀ d, (xr n d : EReal) * (xr m d : EReal) = ((xr n d * xr m d : ℝ) : EReal) := fun d => (EReal.coe_mul _ _).symm
  simp only [h]
  rw [coe_sum, Ideal.div_coe (by norm_num : (16 : ℝ) ≠ 0), ← EReal.coe_mul, ← EReal.coe_zero, coe_max, mul_one_div]

variable [Nonempty ι]

/-- A row of real scores has a real maximum. -/
theorem rowMax_coe (sr : ι → ι → ℝ) (n : ι) : ∃ r : ℝ, rowMax (fun n m => (sr n m : EReal)) n = (r : EReal) := by
  rcases fold_max_coe (sr n) Finset.univ with h | h
  · exact absurd h Finset.univ_nonempty.ne_empty
  · exact h

/-- On real scores and real features, dividing the aggregated row by the row's sum is aggregating the divided
    exponentials: the row's sum is a positive real, and a real factor moves through a finite sum of reals. -/
theorem agg_eq (sr : ι → ι → ℝ) (xr : ι → δ → ℝ) (n : ι) (d : δ) :
    aggK (fun n m => (sr n m : EReal)) (fun m d => (xr m d : EReal)) n d
      = aggR (fun n m => (sr n m : EReal)) (fun m d => (xr m d : EReal)) n d := by
  obtain ⟨r, hr⟩ := rowMax_coe sr n
  have he : ∀ m, expo (fun n m => (sr n m : EReal)) n m = ((Real.exp (sr n m - r) : ℝ) : EReal) := by
    intro m; unfold expo; rw [hr, ← EReal.coe_sub, Ideal.exp_coe]
  have hs : rowSum (fun n m => (sr n m : EReal)) n = ((∑ m, Real.exp (sr n m - r) : ℝ) : EReal) := by
    unfold rowSum; simp only [he]; exact coe_sum _ _
  have hpos : (∑ m, Real.exp (sr n m - r)) ≠ 0 :=
    (Finset.sum_pos (fun m _ => Real.exp_pos _) Finset.univ_nonempty).ne'
  unfold aggK aggR
  rw [hs]
  simp only [he, Ideal.div_coe hpos, ← EReal.coe_mul, coe_sum]
  congr 1
  rw [Finset.sum_mul]
  exact Finset.sum_congr rfl fun m _ => by ring

/-- The two arrangements of the time step agree on real features, whatever the weights and the bias. -/
theorem gcn_eq (xr : ι → δ → ℝ) (w : δ → η → EReal) (b : η → EReal) :
    gcnK ((1 / 16 : ℝ) : EReal) (fun n d => (xr n d : EReal)) w b
      = gcnR ((16 : ℝ) : EReal) (fun n d => (xr n d : EReal)) w b := by
  have hK : scoreK ((1 / 16 : ℝ) : EReal) (fun n d => (xr n d : EReal)) = fun n m => ((scoreReal xr n m : ℝ) : EReal) :=
    funext fun n => funext fun m => scoreK_coe xr n m
  have hR : scoreR ((16 : ℝ) : EReal) (fun n d => (xr n d : EReal)) = fun n m => ((scoreReal xr n m : ℝ) : EReal) :=
    funext fun n => funext fun m => scoreR_coe xr n m
  funext n h
  unfold gcnK gcnR layer
  rw [hK, hR]
  simp only [agg_eq]

/-! ## The whole result -/

/-- The result array (batch × node × time × output feature) as ONE function of the three argument arrays: at
    (b, n, t, h), the time step (first arrangement, scale one sixteenth) of batch b's node features at time t, with
    the weights and the bias, at node n and output feature h. -/
def G (x0 : (⟨4, ![16, 512, 12, 256]⟩ : Shape).Idx → EReal) (x1 : (⟨2, ![256, 256]⟩ : Shape).Idx → EReal)
    (x2 : (⟨1, ![256]⟩ : Shape).Idx → EReal) : (⟨4, ![16, 512, 12, 256]⟩ : Shape).Idx → EReal :=
  fun i => gcnK ((1 / 16 : ℝ) : EReal)
    (fun (n : Fin 512) (d : Fin 256) => x0 (ix4 (⟨(i 0).val, (i 0).isLt⟩ : Fin 16) n (⟨(i 2).val, (i 2).isLt⟩ : Fin 12) d))
    (fun (d : Fin 256) (h : Fin 256) => x1 (ix2 d h)) (fun (h : Fin 256) => x2 (ix1 h))
    (⟨(i 1).val, (i 1).isLt⟩ : Fin 512) (⟨(i 3).val, (i 3).isLt⟩ : Fin 256)

/-- G at an index given by its coordinates. -/
theorem G_apply (x0 : (⟨4, ![16, 512, 12, 256]⟩ : Shape).Idx → EReal) (x1 : (⟨2, ![256, 256]⟩ : Shape).Idx → EReal)
    (x2 : (⟨1, ![256]⟩ : Shape).Idx → EReal) (bb : Fin 16) (n : Fin 512) (t : Fin 12) (h : Fin 256) :
    G x0 x1 x2 (ix4 bb n t h)
      = gcnK ((1 / 16 : ℝ) : EReal) (fun n d => x0 (ix4 bb n t d)) (fun d h => x1 (ix2 d h)) (fun h => x2 (ix1 h)) n h := rfl

end Cert.Gcn

end
-- ==== Proof.Consts.lean ====
/-
  The float literals the two programs spell, as the extended reals their bit patterns denote: zero, minus
  infinity, the bf16 word for one sixteenth (the kernel's scale) and the f32 word for 256 (whose square root is the
  reference's scale, sixteen). Stated once, here, for the modules that read the two programs.
-/
import Idealize.ShloMosaic.PureOps.Ideal

noncomputable section

namespace Cert.Consts

open Idealize.ShloMosaic

/-- The f32 word of all zeros denotes 0. -/
theorem ofBits_zero : Ideal.ofBits .f32 0x00000000#32 = 0 := by
  simp [Ideal.ofBits, Ideal.ieee]

/-- The f32 word 0xFF800000 denotes minus infinity, the bottom of the extended reals. -/
theorem ofBits_neg_inf : Ideal.ofBits .f32 0xFF800000#32 = ⊥ := by
  simp [Ideal.ofBits, Ideal.ieee]

/-- The bf16 word 0x3D80 denotes one sixteenth. -/
theorem ofBits_sixteenth : Ideal.ofBits .bf16 0x3D80#16 = ((1 / 16 : ℝ) : EReal) := by
  simp [Ideal.ofBits, Ideal.ieee, -EReal.coe_mul]; norm_num

/-- The f32 word 0x43800000 denotes 256. -/
theorem ofBits_256 : Ideal.ofBits .f32 0x43800000#32 = ((256 : ℝ) : EReal) := by
  simp [Ideal.ofBits, Ideal.ieee, -EReal.coe_mul]; norm_num

/-- The square root of 256 is 16. -/
theorem sqrt_256 : Ideal.sqrt ((256 : ℝ) : EReal) = ((16 : ℝ) : EReal) := by
  rw [Ideal.sqrt_coe, if_neg (by norm_num)]
  congr 1
  rw [show (256 : ℝ) = 16 ^ 2 by norm_num]
  exact Real.sqrt_sq (by norm_num)

end Cert.Consts

end
-- ==== Proof.KerStep.lean ====
/-
  The kernel's time step read at an index. The body's value for one time slice (node × feature, loaded with unit batch
  and time axes) is, at node n and output feature h, the specification's first arrangement (Spec.lean, gcnK) of the
  slice's node features: the matrix unit's products into a zero accumulator are sums over the contracted axis, the
  lane reductions are the row's running maximum from minus infinity and the row's sum, a change of float format is
  the identity, and every cast or broadcast reads the one entry it moves or repeats.
-/
import proofs.«156433_g54185307406482_cont_9to1_m_905_5_alg».proof.Proof.Gen.KernelIdeal.Skeleton
import proofs.«156433_g54185307406482_cont_9to1_m_905_5_alg».proof.Proof.Spec
import proofs.«156433_g54185307406482_cont_9to1_m_905_5_alg».proof.Proof.Consts
import Idealize.ShloMosaic.Lib.Pipeline.Value
import Idealize.ShloMosaic.Lib.ValueIdx
import Idealize.ShloMosaic.PureOps.Ideal.Laws

noncomputable section

namespace Cert.KernelIdeal.KerStep

open Cert.KernelIdeal Cert.KernelIdeal.Gen Idealize.ShloMosaic Idealize.ShloMosaic.ValueIdx

/-! ## The three matrix products, each read at an index as a sum over its contracted axis -/

/-! ### Scores: (n, d) · (m, d) summed over d -/

theorem mmA_lhs0 (i : S512x512.Idx) (q : dot_S512x256_S512x256_S512x512_1_1_0_0_n_n.contr.Idx) : (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem mmA_lhs1 (i : S512x512.Idx) (q : dot_S512x256_S512x256_S512x512_1_1_0_0_n_n.contr.Idx) : (dot_S512x256_S512x256_S512x512_1_1_0_0_n_n.lhsIdx i q 1).val = (q ⟨0, by decide⟩).val :=
  dot_S512x256_S512x256_S512x512_1_1_0_0_n_n.lhsIdx_val_of_single rfl i q
theorem mmA_rhs0 (i : S512x512.Idx) (q : dot_S512x256_S512x256_S512x512_1_1_0_0_n_n.contr.Idx) : (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem mmA_rhs1 (i : S512x512.Idx) (q : dot_S512x256_S512x256_S512x512_1_1_0_0_n_n.contr.Idx) : (dot_S512x256_S512x256_S512x512_1_1_0_0_n_n.rhsIdx i q 1).val = (q ⟨0, by decide⟩).val :=
  dot_S512x256_S512x256_S512x512_1_1_0_0_n_n.rhsIdx_val_of_single rfl i q

/-- The scores' product at (n, m): the sum over the features of node n's entry times node m's. -/
theorem mmA_apply (l r : FVec Ideal S512x256 .bf16) (n m : Fin 512) :
    matmul dot_S512x256_S512x256_S512x512_1_1_0_0_n_n none l r (constant S512x512 .f32 0x00000000#32) (ix2 n m) = ∑ k : Fin 256, l (ix2 n k) * r (ix2 m k) := by
  show FloatOps.matmul dot_S512x256_S512x256_S512x512_1_1_0_0_n_n none l r (constant S512x512 .f32 0x00000000#32) (ix2 n m) = _
  rw [Ideal.matmul_constant_zero_apply, ← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 n m) ((contrEquiv1 dot_S512x256_S512x256_S512x512_1_1_0_0_n_n 256 rfl rfl).symm k) = ix2 n k := funext fun a => Fin.ext (by
    match a with
    | ⟨0, _⟩ => exact mmA_lhs0 _ _
    | ⟨1, _⟩ => exact (mmA_lhs1 _ _).trans hk)
  have er : dot_S512x256_S512x256_S512x512_1_1_0_0_n_n.rhsIdx (ix2 n m) ((contrEquiv1 dot_S512x256_S512x256_S512x512_1_1_0_0_n_n 256 rfl rfl).symm k) = ix2 m k := funext fun a => Fin.ext (by
    match a with
    | ⟨0, _⟩ => exact mmA_rhs0 _ _
    | ⟨1, _⟩ => exact (mmA_rhs1 _ _).trans hk)
  rw [el, er]

/-! ### Aggregation: (n, m) · (m, d) summed over m -/

theorem mmB_lhs0 (i : S512x256.Idx) (q : dot_S512x512_S512x256_S512x256_1_0_0_1_n_n.contr.Idx) : (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem mmB_lhs1 (i : S512x256.Idx) (q : dot_S512x512_S512x256_S512x256_1_0_0_1_n_n.contr.Idx) : (dot_S512x512_S512x256_S512x256_1_0_0_1_n_n.lhsIdx i q 1).val = (q ⟨0, by decide⟩).val :=
  dot_S512x512_S512x256_S512x256_1_0_0_1_n_n.lhsIdx_val_of_single rfl i q
theorem mmB_rhs0 (i : S512x256.Idx) (q : dot_S512x512_S512x256_S512x256_1_0_0_1_n_n.contr.Idx) : (dot_S512x512_S512x256_S512x256_1_0_0_1_n_n.rhsIdx i q 0).val = (q ⟨0, by decide⟩).val :=
  dot_S512x512_S512x256_S512x256_1_0_0_1_n_n.rhsIdx_val_of_single rfl i q
theorem mmB_rhs1 (i : S512x256.Idx) (q : dot_S512x512_S512x256_S512x256_1_0_0_1_n_n.contr.Idx) : (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The aggregation at (n, d): the sum over the nodes m of the weight of (n, m) times node m's feature d. -/
theorem mmB_apply (l : FVec Ideal S512x512 .bf16) (r : FVec Ideal S512x256 .bf16) (n : Fin 512) (d : Fin 256) :
    matmul dot_S512x512_S512x256_S512x256_1_0_0_1_n_n none l r (constant S512x256 .f32 0x00000000#32) (ix2 n d) = ∑ k : Fin 512, l (ix2 n k) * r (ix2 k d) := by
  show FloatOps.matmul dot_S512x512_S512x256_S512x256_1_0_0_1_n_n none l r (constant S512x256 .f32 0x00000000#32) (ix2 n d) = _
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 n d) ((contrEquiv1 dot_S512x512_S512x256_S512x256_1_0_0_1_n_n 512 rfl rfl).symm k) = ix2 n k := funext fun a => Fin.ext (by
    match a with
    | ⟨0, _⟩ => exact mmB_lhs0 _ _
    | ⟨1, _⟩ => exact (mmB_lhs1 _ _).trans hk)
  have er : dot_S512x512_S512x256_S512x256_1_0_0_1_n_n.rhsIdx (ix2 n d) ((contrEquiv1 dot_S512x512_S512x256_S512x256_1_0_0_1_n_n 512 rfl rfl).symm k) = ix2 k d := funext fun a => Fin.ext (by
    match a with
    | ⟨0, _⟩ => exact (mmB_rhs0 _ _).trans hk
    | ⟨1, _⟩ => exact mmB_rhs1 _ _)
  rw [el, er]

/-! ### The linear layer: (n, d) · (d, h) summed over d -/

theorem mmC_lhs0 (i : S512x256.Idx) (q : dot_S512x256_S256x256_S512x256_1_0_0_1_n_n.contr.Idx) : (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem mmC_lhs1 (i : S512x256.Idx) (q : dot_S512x256_S256x256_S512x256_1_0_0_1_n_n.contr.Idx) : (dot_S512x256_S256x256_S512x256_1_0_0_1_n_n.lhsIdx i q 1).val = (q ⟨0, by decide⟩).val :=
  dot_S512x256_S256x256_S512x256_1_0_0_1_n_n.lhsIdx_val_of_single rfl i q
theorem mmC_rhs0 (i : S512x256.Idx) (q : dot_S512x256_S256x256_S512x256_1_0_0_1_n_n.contr.Idx) : (dot_S512x256_S256x256_S512x256_1_0_0_1_n_n.rhsIdx i q 0).val = (q ⟨0, by decide⟩).val :=
  dot_S512x256_S256x256_S512x256_1_0_0_1_n_n.rhsIdx_val_of_single rfl i q
theorem mmC_rhs1 (i : S512x256.Idx) (q : dot_S512x256_S256x256_S512x256_1_0_0_1_n_n.contr.Idx) : (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The linear layer at (n, h): the sum over the features d of the aggregated feature times the weight (d, h). -/
theorem mmC_apply (l : FVec Ideal S512x256 .bf16) (r : FVec Ideal S256x256 .bf16) (n : Fin 512) (h : Fin 256) :
    matmul dot_S512x256_S256x256_S512x256_1_0_0_1_n_n none l r (constant S512x256 .f32 0x00000000#32) (ix2 n h) = ∑ k : Fin 256, l (ix2 n k) * r (ix2 k h) := by
  show FloatOps.matmul dot_S512x256_S256x256_S512x256_1_0_0_1_n_n none l r (constant S512x256 .f32 0x00000000#32) (ix2 n h) = _
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 n h) ((contrEquiv1 dot_S512x256_S256x256_S512x256_1_0_0_1_n_n 256 rfl rfl).symm k) = ix2 n k := funext fun a => Fin.ext (by
    match a with
    | ⟨0, _⟩ => exact mmC_lhs0 _ _
    | ⟨1, _⟩ => exact (mmC_lhs1 _ _).trans hk)
  have er : dot_S512x256_S256x256_S512x256_1_0_0_1_n_n.rhsIdx (ix2 n h) ((contrEquiv1 dot_S512x256_S256x256_S512x256_1_0_0_1_n_n 256 rfl rfl).symm k) = ix2 k h := funext fun a => Fin.ext (by
    match a with
    | ⟨0, _⟩ => exact (mmC_rhs0 _ _).trans hk
    | ⟨1, _⟩ => exact mmC_rhs1 _ _)
  rw [el, er]

/-! ## Casts and broadcasts read at an index -/

/-- The loaded slice (unit batch and time axes) as node × feature. -/
theorem castIn_apply {α : Type} (v : S1x512x1x256.Idx → α) (n : Fin 512) (d : Fin 256) :
    shapeCast S512x256 v shapeCasts_S1x512x1x256_S512x256 (ix2 n d) = v (ix4 (0 : Fin 1) n (0 : Fin 1) d) :=
  shapeCast_apply v shapeCasts_S1x512x1x256_S512x256 (ix2 n d) (ix4 (0 : Fin 1) n (0 : Fin 1) d) (by
    rw [Shape.rowMajor_val_four, Shape.rowMajor_val_two]
    show ((0 * 512 + n.val) * 1 + 0) * 256 + d.val = n.val * 256 + d.val
    omega)

/-- The stored value (node × feature) given back its unit batch and time axes. -/
theorem castOut_apply {α : Type} (v : S512x256.Idx → α) (n : Fin 512) (h : Fin 256) :
    shapeCast S1x512x1x256 v shapeCasts_S512x256_S1x512x1x256 (ix4 (0 : Fin 1) n (0 : Fin 1) h) = v (ix2 n h) :=
  shapeCast_apply v shapeCasts_S512x256_S1x512x1x256 (ix4 (0 : Fin 1) n (0 : Fin 1) h) (ix2 n h) (by
    rw [Shape.rowMajor_val_four, Shape.rowMajor_val_two]
    show n.val * 256 + h.val = ((0 * 512 + n.val) * 1 + 0) * 256 + h.val
    omega)

/-- A per-row value made a column and repeated along the row reads the row's value. -/
theorem colBcast_apply {α : Type} {B : Nat} (v : S512.Idx → α) (hb : S512x1.Broadcasts (⟨2, ![512, B]⟩ : Shape)) (n : Fin 512) (m : Fin B) :
    broadcastTo (⟨2, ![512, B]⟩ : Shape) (shapeCast S512x1 v shapeCasts_S512_S512x1) hb (ix2 n m) = v (ix1 n) := by
  rw [broadcastTo_apply (shapeCast S512x1 v shapeCasts_S512_S512x1) hb (ix2 n m) (ix2 n (0 : Fin 1)) (fun a => match a with
    | ⟨0, _⟩ => by show n.val = if (512 : Nat) = 1 then 0 else n.val; rw [if_neg (by decide)]
    | ⟨1, _⟩ => by show (0 : Nat) = if (1 : Nat) = 1 then 0 else m.val; rw [if_pos rfl])]
  exact shapeCast_apply v shapeCasts_S512_S512x1 (ix2 n (0 : Fin 1)) (ix1 n) (by
    rw [Shape.rowMajor_val_one, Shape.rowMajor_val_two]
    show n.val = n.val * 1 + 0
    omega)

/-- The bias made a row and repeated over the nodes reads its entry at the output feature. -/
theorem biasBcast_apply {α : Type} (v : S256.Idx → α) (n : Fin 512) (h : Fin 256) :
    broadcastTo S512x256 (shapeCast S1x256 v shapeCasts_S256_S1x256) broadcasts_S1x256_S512x256 (ix2 n h) = v (ix1 h) := by
  rw [broadcastTo_apply (shapeCast S1x256 v shapeCasts_S256_S1x256) broadcasts_S1x256_S512x256 (ix2 n h) (ix2 (0 : Fin 1) h) (fun a => match a with
    | ⟨0, _⟩ => by show (0 : Nat) = if (1 : Nat) = 1 then 0 else n.val; rw [if_pos rfl]
    | ⟨1, _⟩ => by show h.val = if (256 : Nat) = 1 then 0 else h.val; rw [if_neg (by decide)])]
  exact shapeCast_apply v shapeCasts_S256_S1x256 (ix2 (0 : Fin 1) h) (ix1 h) (by
    rw [Shape.rowMajor_val_one, Shape.rowMajor_val_two]
    show h.val = 0 * 256 + h.val
    omega)

/-! ## The two lane reductions -/

/-- The row n with the coordinate k put back on the reduced axis is (n, k). -/
theorem lift_row (n : Fin 512) (k : Fin (S512x512.size 1)) :
    reduces_S512x512_S512.lift (ix1 n) k = ix2 n (⟨k.val, k.isLt⟩ : Fin 512) := by
  funext c; apply Fin.ext
  fin_cases c <;> rfl

/-- The row's maximum: the lane reduction from the word of minus infinity is the running maximum of the row's
    entries from the bottom of the extended reals. -/
theorem rowMax_apply (v : FVec Ideal S512x512 .f32) (hφ : FKind.Formats .f32)
    (hacc : (0xFF800000#32 : BitVec 32) = 0xFF800000#32) (n : Fin 512) :
    multiReduction .maximumf [1] S512 v 0xFF800000#32 reduces_S512x512_S512 hφ hacc (ix1 n)
      = (Finset.univ : Finset (Fin 512)).fold max ⊥ (fun m => v (ix2 n m)) := by
  refine (Ideal.multiReduction_maximumf_single v 0xFF800000#32 reduces_S512x512_S512 hφ hacc (ix1 n)).trans ?_
  show Finset.fold max (Ideal.ofBits .f32 0xFF800000#32) (v ∘ reduces_S512x512_S512.lift (ix1 n)) (Finset.univ : Finset (Fin 512)) = _
  rw [Consts.ofBits_neg_inf]
  have hf : (v ∘ reduces_S512x512_S512.lift (ix1 n)) = fun k : Fin 512 => v (ix2 n k) := funext fun k => congrArg v (lift_row n k)
  exact congrArg (fun f => Finset.fold max ⊥ f (Finset.univ : Finset (Fin 512))) hf

/-- The row's sum: the lane sum from zero is the sum of the row's entries. -/
theorem rowSum_apply (v : FVec Ideal S512x512 .f32) (hφ : FKind.Formats .f32)
    (hacc : (0x00000000#32 : BitVec 32) = 0x00000000#32) (n : Fin 512) :
    multiReduction .add [1] S512 v 0x00000000#32 reduces_S512x512_S512 hφ hacc (ix1 n) = ∑ m : Fin 512, v (ix2 n m) := by
  refine (Ideal.multiReduction_add_single v 0x00000000#32 reduces_S512x512_S512 hφ hacc (ix1 n)).trans ?_
  exact Finset.sum_congr rfl fun k _ => congrArg v (lift_row n k)

/-! ## The time step's stages -/

/-- The slice as node × feature (the change of float format is the identity). -/
def xK (v : Vec Ideal S1x512x1x256 .f32) : FVec Ideal S512x256 .bf16 :=
  truncf .bf16 (shapeCast S512x256 v shapeCasts_S1x512x1x256_S512x256) bitsLt_bf16_f32

/-- The scores: each node's features scaled by the bf16 literal, times each node's features, clipped below at zero. -/
def scK (x : FVec Ideal S512x256 .bf16) : FVec Ideal S512x512 .f32 :=
  maximumf (matmul dot_S512x256_S512x256_S512x512_1_1_0_0_n_n none (mulf x (broadcast S512x256 (Scalar.ofBits .bf16 0x3D80#16))) x (constant S512x512 .f32 0x00000000#32))
    (broadcast S512x512 (Scalar.ofBits .f32 0x00000000#32))

/-- The rows' maxima, as a column. -/
def mxK (sc : FVec Ideal S512x512 .f32) : FVec Ideal S512x1 .f32 :=
  shapeCast S512x1 (multiReduction .maximumf [1] S512 sc 0xFF800000#32 reduces_S512x512_S512 (.inl rfl) rfl) shapeCasts_S512_S512x1

/-- The exponentials of the scores' differences to their rows' maxima. -/
def eK (sc : FVec Ideal S512x512 .f32) : FVec Ideal S512x512 .f32 :=
  exp (subf sc (broadcastTo S512x512 (mxK sc) broadcasts_S512x1_S512x512))

/-- The rows' sums of exponentials, as a column. -/
def denK (e : FVec Ideal S512x512 .f32) : FVec Ideal S512x1 .f32 :=
  shapeCast S512x1 (multiReduction .add [1] S512 e 0x00000000#32 reduces_S512x512_S512 (.inl rfl) rfl) shapeCasts_S512_S512x1

/-- The aggregated rows over their rows' sums. -/
def hK (e : FVec Ideal S512x512 .f32) (x : FVec Ideal S512x256 .bf16) : FVec Ideal S512x256 .f32 :=
  divf (matmul dot_S512x512_S512x256_S512x256_1_0_0_1_n_n none (truncf .bf16 e bitsLt_bf16_f32) x (constant S512x256 .f32 0x00000000#32))
    (broadcastTo S512x256 (denK e) broadcasts_S512x1_S512x256)

/-- The body's value for one slice is its stages composed: the linear layer, the bias, the clip, the two unit axes. -/
theorem pay_eq (v1 : FVec Ideal S256x256 .bf16) (v3 : FVec Ideal S256 .f32) (v : Vec Ideal S1x512x1x256 .f32) :
    k0_pay5 (F := Ideal) v1 v3 v
      = shapeCast S1x512x1x256 (maximumf (addf
          (matmul dot_S512x256_S256x256_S512x256_1_0_0_1_n_n none (truncf .bf16 (hK (eK (scK (xK v))) (xK v)) bitsLt_bf16_f32) v1 (constant S512x256 .f32 0x00000000#32))
          (broadcastTo S512x256 (shapeCast S1x256 v3 shapeCasts_S256_S1x256) broadcasts_S1x256_S512x256))
          (broadcast S512x256 (Scalar.ofBits .f32 0x00000000#32))) shapeCasts_S512x256_S1x512x1x256 := rfl

theorem xK_apply (v : Vec Ideal S1x512x1x256 .f32) (n : Fin 512) (d : Fin 256) :
    xK v (ix2 n d) = v (ix4 (0 : Fin 1) n (0 : Fin 1) d) := by
  unfold xK
  rw [truncf_apply, castIn_apply]

theorem scK_apply (x : FVec Ideal S512x256 .bf16) (n m : Fin 512) :
    scK x (ix2 n m) = Gcn.scoreK ((1 / 16 : ℝ) : EReal) (fun n d => x (ix2 n d)) n m := by
  unfold scK Gcn.scoreK
  rw [maximumf_apply, mmA_apply]
  show max (∑ k : Fin 256, (x (ix2 n k) * Ideal.ofBits .bf16 0x3D80#16) * x (ix2 m k)) (Ideal.ofBits .f32 0x00000000#32) = _
  rw [Consts.ofBits_sixteenth, Consts.ofBits_zero]

theorem eK_apply (sc : FVec Ideal S512x512 .f32) (n m : Fin 512) :
    eK sc (ix2 n m) = Ideal.exp (sc (ix2 n m) - (Finset.univ : Finset (Fin 512)).fold max ⊥ (fun m => sc (ix2 n m))) := by
  unfold eK mxK
  show Ideal.exp (subf sc _ (ix2 n m)) = _
  rw [subf_apply, colBcast_apply]
  exact congrArg (fun z => Ideal.exp (sc (ix2 n m) - z)) (rowMax_apply sc _ _ n)

theorem hK_apply (e : FVec Ideal S512x512 .f32) (x : FVec Ideal S512x256 .bf16) (n : Fin 512) (d : Fin 256) :
    hK e x (ix2 n d) = Ideal.div (∑ m : Fin 512, e (ix2 n m) * x (ix2 m d)) (∑ m : Fin 512, e (ix2 n m)) := by
  unfold hK denK
  rw [divf_apply, mmB_apply, colBcast_apply]
  exact congrArg (fun z => Ideal.div (∑ k : Fin 512, e (ix2 n k) * x (ix2 k d)) z) (rowSum_apply e _ _ n)

/-! ## The time step at an index -/

/-- The body's value for the slice v at node n and output feature h: the specification's first arrangement of the
    slice's node features, with the weights and the bias as loaded. -/
theorem pay_apply (v1 : FVec Ideal S256x256 .bf16) (v3 : FVec Ideal S256 .f32) (v : Vec Ideal S1x512x1x256 .f32) (n : Fin 512) (h : Fin 256) :
    k0_pay5 (F := Ideal) v1 v3 v (ix4 (0 : Fin 1) n (0 : Fin 1) h)
      = Gcn.gcnK ((1 / 16 : ℝ) : EReal) (fun n d => v (ix4 (0 : Fin 1) n (0 : Fin 1) d)) (fun d h => v1 (ix2 d h)) (fun h => v3 (ix1 h)) n h := by
  have hx : (fun n d => xK v (ix2 n d)) = fun (n : Fin 512) (d : Fin 256) => v (ix4 (0 : Fin 1) n (0 : Fin 1) d) :=
    funext fun n => funext fun d => xK_apply v n d
  have hsc : ∀ n m, scK (xK v) (ix2 n m) = Gcn.scoreK ((1 / 16 : ℝ) : EReal) (fun n d => v (ix4 (0 : Fin 1) n (0 : Fin 1) d)) n m := by
    intro n m; rw [scK_apply, hx]
  have he : ∀ n m, eK (scK (xK v)) (ix2 n m) = Gcn.expo (Gcn.scoreK ((1 / 16 : ℝ) : EReal) (fun n d => v (ix4 (0 : Fin 1) n (0 : Fin 1) d))) n m := by
    intro n m
    rw [eK_apply]
    simp only [hsc]
    unfold Gcn.expo Gcn.rowMax
    with_reducible rfl
  have hh : ∀ n d, hK (eK (scK (xK v))) (xK v) (ix2 n d)
      = Gcn.aggK (Gcn.scoreK ((1 / 16 : ℝ) : EReal) (fun n d => v (ix4 (0 : Fin 1) n (0 : Fin 1) d))) (fun n d => v (ix4 (0 : Fin 1) n (0 : Fin 1) d)) n d := by
    intro n d
    rw [hK_apply]
    simp only [he, xK_apply]
    unfold Gcn.aggK Gcn.rowSum
    with_reducible rfl
  rw [pay_eq, castOut_apply, maximumf_apply, addf_apply, mmC_apply, biasBcast_apply]
  simp only [truncf_apply, hh]
  unfold Gcn.gcnK Gcn.layer
  show max _ (Ideal.ofBits .f32 0x00000000#32) = _
  rw [Consts.ofBits_zero]

end Cert.KernelIdeal.KerStep

end
-- ==== Proof.KerValue.lean ====
/-
  The kernel's result as ONE function of its arguments. Every one of the body's twelve stores holds the same time step
  (Skeleton's k0_pay5) of the time slice it loads, so what the body leaves in its output block is, at (0, n, t, h), the
  specification's first arrangement of the block's node features at time t. Grid point b stages batch b of the
  argument, the whole bf16 copy of the weights and the bias as a row, and writes back batch b of the result; the
  sixteen blocks cover the result array, which is therefore the whole-array function G (Spec.lean) of the arguments.
-/
import proofs.«156433_g54185307406482_cont_9to1_m_905_5_alg».proof.Proof.Gen.KernelIdeal.Value
import proofs.«156433_g54185307406482_cont_9to1_m_905_5_alg».proof.Proof.KerStep

set_option maxRecDepth 16384

noncomputable section

namespace Cert.KernelIdeal.KerValue

open Cert.KernelIdeal Cert.KernelIdeal.Gen Cert.KernelIdeal.KerStep Idealize.ShloMosaic Idealize.ShloMosaic.TcCoe Idealize.ShloMosaic.ValueIdx
open Idealize.SL.Sem Idealize.ShloMosaic.StableHlo
open Idealize.ShloMosaic.Pipeline (Dat)

/-! ## Every store's payload is the one time step -/

section Pieces

variable {F : FTy → Type} [FloatOps F]

theorem piece0 (x1 : Vec F S256x256 .bf16) (x2 : Vec F S1x256 .f32) (x : Vec F S1x512x1x256 .f32) :
    k0_pay4 x1 x2 x = k0_pay5 (k0_pay2 x1) (k0_pay3 x2) x := rfl
theorem piece2 (v1 : FVec F S256x256 .bf16) (v3 : FVec F S256 .f32) (x : Vec F S1x512x1x256 .f32) :
    k0_pay9 v1 v3 (k0_pay6 x) (k0_pay7 x) (k0_pay8 x) = k0_pay5 v1 v3 x := rfl
theorem piece3 (v1 : FVec F S256x256 .bf16) (v3 : FVec F S256 .f32) (x : Vec F S1x512x1x256 .f32) :
    k0_pay12 (k0_pay10 v1 x) (k0_pay11 v3) = k0_pay5 v1 v3 x := rfl
theorem piece4 (v1 : FVec F S256x256 .bf16) (v3 : FVec F S256 .f32) (x : Vec F S1x512x1x256 .f32) :
    k0_pay13 v1 v3 x = k0_pay5 v1 v3 x := rfl
theorem piece5 (v1 : FVec F S256x256 .bf16) (v3 : FVec F S256 .f32) (x : Vec F S1x512x1x256 .f32) :
    k0_pay14 v1 v3 x = k0_pay5 v1 v3 x := rfl
theorem piece6 (v1 : FVec F S256x256 .bf16) (v3 : FVec F S256 .f32) (x : Vec F S1x512x1x256 .f32) :
    k0_pay17 v1 v3 (k0_pay15 x) (k0_pay16 x) = k0_pay5 v1 v3 x := rfl
theorem piece7 (v1 : FVec F S256x256 .bf16) (v3 : FVec F S256 .f32) (x : Vec F S1x512x1x256 .f32) :
    k0_pay19 v1 v3 (k0_pay18 x) = k0_pay5 v1 v3 x := rfl
theorem piece8 (v1 : FVec F S256x256 .bf16) (v3 : FVec F S256 .f32) (x : Vec F S1x512x1x256 .f32) :
    k0_pay21 (k0_pay20 v1 v3 x) = k0_pay5 v1 v3 x := rfl
theorem piece9 (v1 : FVec F S256x256 .bf16) (v3 : FVec F S256 .f32) (x : Vec F S1x512x1x256 .f32) :
    k0_pay22 v1 v3 x = k0_pay5 v1 v3 x := rfl
theorem piece10 (v1 : FVec F S256x256 .bf16) (v3 : FVec F S256 .f32) (x : Vec F S1x512x1x256 .f32) :
    k0_pay25 v1 v3 (k0_pay23 x) (k0_pay24 x) (constant S512x512 .f32 0x00000000#32) = k0_pay5 v1 v3 x := rfl
theorem piece11 (v1 : FVec F S256x256 .bf16) (v3 : FVec F S256 .f32) (x : Vec F S1x512x1x256 .f32) :
    k0_pay1 v1 v3 (k0_pay26 x) (k0_pay28 x) (k0_pay29 x) = k0_pay5 v1 v3 x := rfl

/-- What the body leaves in its output block: twelve pieces, one per time, each the time step of the slice loaded
    at that time. -/
theorem out_pieces (x0 : Vec F S1x512x12x256 .f32) (x1 : Vec F S256x256 .bf16) (x2 : Vec F S1x256 .f32) :
    out0_3 x0 x1 x2 = View.canon [
      ⟨r0_13, k0_pay5 (k0_pay2 (View.ld x1 r0_0)) (k0_pay3 (View.ld x2 r0_1)) (View.ld x0 r0_13)⟩,
      ⟨r0_12, k0_pay5 (k0_pay2 (View.ld x1 r0_0)) (k0_pay3 (View.ld x2 r0_1)) (View.ld x0 r0_12)⟩,
      ⟨r0_11, k0_pay5 (k0_pay2 (View.ld x1 r0_0)) (k0_pay3 (View.ld x2 r0_1)) (View.ld x0 r0_11)⟩,
      ⟨r0_10, k0_pay5 (k0_pay2 (View.ld x1 r0_0)) (k0_pay3 (View.ld x2 r0_1)) (View.ld x0 r0_10)⟩,
      ⟨r0_9, k0_pay5 (k0_pay2 (View.ld x1 r0_0)) (k0_pay3 (View.ld x2 r0_1)) (View.ld x0 r0_9)⟩,
      ⟨r0_8, k0_pay5 (k0_pay2 (View.ld x1 r0_0)) (k0_pay3 (View.ld x2 r0_1)) (View.ld x0 r0_8)⟩,
      ⟨r0_7, k0_pay5 (k0_pay2 (View.ld x1 r0_0)) (k0_pay3 (View.ld x2 r0_1)) (View.ld x0 r0_7)⟩,
      ⟨r0_6, k0_pay5 (k0_pay2 (View.ld x1 r0_0)) (k0_pay3 (View.ld x2 r0_1)) (View.ld x0 r0_6)⟩,
      ⟨r0_5, k0_pay5 (k0_pay2 (View.ld x1 r0_0)) (k0_pay3 (View.ld x2 r0_1)) (View.ld x0 r0_5)⟩,
      ⟨r0_4, k0_pay5 (k0_pay2 (View.ld x1 r0_0)) (k0_pay3 (View.ld x2 r0_1)) (View.ld x0 r0_4)⟩,
      ⟨r0_3, k0_pay5 (k0_pay2 (View.ld x1 r0_0)) (k0_pay3 (View.ld x2 r0_1)) (View.ld x0 r0_3)⟩,
      ⟨r0_2, k0_pay5 (k0_pay2 (View.ld x1 r0_0)) (k0_pay3 (View.ld x2 r0_1)) (View.ld x0 r0_2)⟩] := by
  unfold out0_3
  rw [piece11, piece10, piece8, piece7, piece6, piece3, piece2, piece0]
  rfl

end Pieces

/-! ## The output block as one function of the staged blocks -/

/-- The output block at (0, n, t, h): the first arrangement of the staged block's node features at time t. -/
def Gblk (x0 : Vec Ideal S1x512x12x256 .f32) (w1 : FVec Ideal S256x256 .bf16) (b1 : FVec Ideal S256 .f32) : S1x512x12x256.Idx → EReal :=
  fun y => Gcn.gcnK ((1 / 16 : ℝ) : EReal)
    (fun (n : Fin 512) (d : Fin 256) => x0 (ix4 (0 : Fin 1) n (⟨(y 2).val, (y 2).isLt⟩ : Fin 12) d))
    (fun (d : Fin 256) (h : Fin 256) => w1 (ix2 d h)) (fun (h : Fin 256) => b1 (ix1 h))
    (⟨(y 1).val, (y 1).isLt⟩ : Fin 512) (⟨(y 3).val, (y 3).isLt⟩ : Fin 256)

/-- The store rectangle at time t places (0, n, 0, h) at (0, n, t, h). -/
theorem emb_slice (t : Nat) (ht : t < 12) (inb : ∀ a, (![0, 0, t, 0] : Fin 4 → Nat) a + S1x512x1x256.size a ≤ S1x512x12x256.size a)
    (n : Fin 512) (h : Fin 256) :
    (Rect.unit (s := S1x512x12x256) ![0, 0, t, 0] S1x512x1x256.size inb).emb (ix4 (0 : Fin 1) n (0 : Fin 1) h)
      = ix4 (0 : Fin 1) n (⟨t, ht⟩ : Fin 12) h := by
  funext a; apply Fin.ext
  match a with
  | ⟨0, _⟩ => show 0 + 1 * 0 = 0; omega
  | ⟨1, _⟩ => show 0 + 1 * n.val = n.val; omega
  | ⟨2, _⟩ => show t + 1 * 0 = t; omega
  | ⟨3, _⟩ => show 0 + 1 * h.val = h.val; omega

/-- The piece stored at time t agrees with the block function on its rectangle. -/
theorem piece_ok (x0 : Vec Ideal S1x512x12x256 .f32) (w1 : FVec Ideal S256x256 .bf16) (b1 : FVec Ideal S256 .f32) (t : Nat) (ht : t < 12)
    (inb : ∀ a, (![0, 0, t, 0] : Fin 4 → Nat) a + S1x512x1x256.size a ≤ S1x512x12x256.size a) (x : S1x512x1x256.Idx) :
    k0_pay5 (F := Ideal) w1 b1 (View.ld x0 (Rect.unit (s := S1x512x12x256) ![0, 0, t, 0] S1x512x1x256.size inb)) x
      = Gblk x0 w1 b1 ((Rect.unit (s := S1x512x12x256) ![0, 0, t, 0] S1x512x1x256.size inb).emb x) := by
  obtain ⟨n, h, rfl⟩ : ∃ (n : Fin 512) (h : Fin 256), x = ix4 (0 : Fin 1) n (0 : Fin 1) h :=
    ⟨x 1, x 3, funext fun a => Fin.ext (by
      match a with
      | ⟨0, _⟩ => show (x 0).val = 0; have : (x 0).val < 1 := (x 0).isLt; omega
      | ⟨1, _⟩ => rfl
      | ⟨2, _⟩ => show (x 2).val = 0; have : (x 2).val < 1 := (x 2).isLt; omega
      | ⟨3, _⟩ => rfl)⟩
  rw [pay_apply, emb_slice t ht inb n h]
  have hl : (fun (n : Fin 512) (d : Fin 256) => View.ld x0 (Rect.unit (s := S1x512x12x256) ![0, 0, t, 0] S1x512x1x256.size inb) (ix4 (0 : Fin 1) n (0 : Fin 1) d))
      = fun (n : Fin 512) (d : Fin 256) => x0 (ix4 (0 : Fin 1) n (⟨t, ht⟩ : Fin 12) d) :=
    funext fun n => funext fun d => congrArg x0 (emb_slice t ht inb n d)
  rw [hl]
  rfl

/-- The body's output block is the block function of the staged blocks, the weights and the bias as the body casts them. -/
theorem canon_block (x0 : Vec Ideal S1x512x12x256 .f32) (x1 : Vec Ideal S256x256 .bf16) (x2 : Vec Ideal S1x256 .f32) (y : S1x512x12x256.Idx) :
    out0_3 (F := Ideal) x0 x1 x2 y = Gblk x0 (k0_pay2 (View.ld x1 r0_0)) (k0_pay3 (View.ld x2 r0_1)) y := by
  rw [out_pieces]
  refine View.canon_apply_of_pieces (Val := Elt Ideal) (e := .f32) (Gblk x0 (k0_pay2 (View.ld x1 r0_0)) (k0_pay3 (View.ld x2 r0_1))) _ ?_ y (cover0_3 _ _ _ _ _ _ _ _ _ _ _ _ y)
  intro p hp x
  simp only [List.mem_cons, List.not_mem_nil, or_false] at hp
  rcases hp with rfl | rfl | rfl | rfl | rfl | rfl | rfl | rfl | rfl | rfl | rfl | rfl
  · exact piece_ok x0 _ _ 11 (by decide) _ x
  · exact piece_ok x0 _ _ 10 (by decide) _ x
  · exact piece_ok x0 _ _ 9 (by decide) _ x
  · exact piece_ok x0 _ _ 8 (by decide) _ x
  · exact piece_ok x0 _ _ 7 (by decide) _ x
  · exact piece_ok x0 _ _ 6 (by decide) _ x
  · exact piece_ok x0 _ _ 5 (by decide) _ x
  · exact piece_ok x0 _ _ 4 (by decide) _ x
  · exact piece_ok x0 _ _ 3 (by decide) _ x
  · exact piece_ok x0 _ _ 2 (by decide) _ x
  · exact piece_ok x0 _ _ 1 (by decide) _ x
  · exact piece_ok x0 _ _ 0 (by decide) _ x

/-- The block function at an index given by its coordinates. -/
theorem Gblk_apply (x0 : Vec Ideal S1x512x12x256 .f32) (w1 : FVec Ideal S256x256 .bf16) (b1 : FVec Ideal S256 .f32) (n : Fin 512) (tt : Fin 12) (h : Fin 256) :
    Gblk x0 w1 b1 (ix4 (0 : Fin 1) n tt h)
      = Gcn.gcnK ((1 / 16 : ℝ) : EReal) (fun n d => x0 (ix4 (0 : Fin 1) n tt d)) (fun d h => w1 (ix2 d h)) (fun h => b1 (ix1 h)) n h := rfl

/-! ## The staged blocks, read off the arrays -/

section Run

variable (m : (ℓ : Loc nD τ sig) → Buf (Elt Ideal) ℓ) (ρ : Dev nD → PrngReg)

/-- The printed index maps, decided over the sixteen grid points: the argument's and the result's blocks sit at
    batch t, the weights' and the bias's blocks are their whole arrays. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_3.index t (0 : Fin 4) = t.val ∧ win0_3.index t (1 : Fin 4) = 0 ∧ win0_3.index t (2 : Fin 4) = 0 ∧ win0_3.index t (3 : Fin 4) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem lt16 (t : Fin cfg0.N) : t.val < 16 := Nat.lt_of_lt_of_eq t.isLt (show cfg0.N = 16 from N_0)

/-- The weights as the region finds them: the host's change of float format of the argument, the identity here. -/
theorem V_w (c : Dev nD) : (V m c main_v0 : S256x256.Idx → EReal) = fun i => m ((c : Thread nD τ).loc main_arg1) i := by
  dsimp only [Gen.V, Gen.hostOps0]; after_results; rfl

/-- The bias as the region finds it: the host's reshape of the argument to a row. -/
theorem V_b (c : Dev nD) : (V m c main_v1 : S1x256.Idx → EReal) = shapeCast S1x256 (m ((c : Thread nD τ).loc main_arg2)) shapeCasts_S256_S1x256 := by
  dsimp only [Gen.V, Gen.hostOps0]; after_results; rfl

/-- The argument's block at grid point t, at (0, n, tt, d): the argument at (t, n, tt, d). -/
theorem blk0_apply (c : Dev nD) (t : Fin cfg0.N) (n : Fin 512) (tt : Fin 12) (d : Fin 256) :
    (iblk m c 0 t : S1x512x12x256.Idx → EReal) (ix4 (0 : Fin 1) n tt d)
      = m ((c : Thread nD τ).loc main_arg0) (ix4 (⟨t.val, lt16 t⟩ : Fin 16) n tt d) := by
  show V m c main_arg0 (((cfg0.win 0).blk t).view.emb (ix4 (0 : Fin 1) n tt d)) = _
  rw [V_main_arg0]
  refine congrArg (m ((c : Thread nD τ).loc main_arg0)) ?_
  obtain ⟨e0, e1, e2, e3, -⟩ := idx_facts t
  funext a; apply Fin.ext
  match a with
  | ⟨0, _⟩ => show win0_0.index t (0 : Fin 4) * 1 + 1 * 0 = t.val; omega
  | ⟨1, _⟩ => show win0_0.index t (1 : Fin 4) * 512 + 1 * n.val = n.val; omega
  | ⟨2, _⟩ => show win0_0.index t (2 : Fin 4) * 12 + 1 * tt.val = tt.val; omega
  | ⟨3, _⟩ => show win0_0.index t (3 : Fin 4) * 256 + 1 * d.val = d.val; omega

theorem hz2 : (![0, 0] : Fin 2 → Nat) = fun _ => 0 := funext fun a => by fin_cases a <;> rfl

/-- The weights as the body casts them, at (d, h): the argument's entry. -/
theorem w_apply (c : Dev nD) (t : Fin cfg0.N) (d h : Fin 256) :
    k0_pay2 (F := Ideal) (View.ld (iblk m c 1 t) r0_0) (ix2 d h) = m ((c : Thread nD τ).loc main_arg1) (ix2 d h) := by
  unfold k0_pay2
  rw [shapeCast_self, View.ld_unit_zero (S := S256x256) hz2]
  show V m c main_v0 (((cfg0.win 1).blk t).view.emb (ix2 d h)) = _
  have e : ((cfg0.win 1).blk t).view.emb (ix2 d h) = ix2 d h := by
    obtain ⟨-, -, -, -, -, -, -, -, e0, e1, -⟩ := idx_facts t
    funext a; apply Fin.ext
    match a with
    | ⟨0, _⟩ => show win0_1.index t (0 : Fin 2) * 256 + 1 * d.val = d.val; omega
    | ⟨1, _⟩ => show win0_1.index t (1 : Fin 2) * 256 + 1 * h.val = h.val; omega
  rw [e]
  exact congrFun (V_w m c) (ix2 d h)

/-- The bias as the body casts it, at h: the argument's entry. -/
theorem b_apply (c : Dev nD) (t : Fin cfg0.N) (h : Fin 256) :
    k0_pay3 (F := Ideal) (View.ld (iblk m c 2 t) r0_1) (ix1 h) = m ((c : Thread nD τ).loc main_arg2) (ix1 h) := by
  unfold k0_pay3
  rw [View.ld_unit_zero (S := S1x256) hz2]
  rw [shapeCast_apply _ shapeCasts_S1x256_S256 (ix1 h) (ix2 (0 : Fin 1) h) (by
    rw [Shape.rowMajor_val_one, Shape.rowMajor_val_two]
    show 0 * 256 + h.val = h.val
    omega)]
  show V m c main_v1 (((cfg0.win 2).blk t).view.emb (ix2 (0 : Fin 1) h)) = _
  have e : ((cfg0.win 2).blk t).view.emb (ix2 (0 : Fin 1) h) = ix2 (0 : Fin 1) h := by
    obtain ⟨-, -, -, -, -, -, -, -, -, -, e0, e1⟩ := idx_facts t
    funext a; apply Fin.ext
    match a with
    | ⟨0, _⟩ => show win0_2.index t (0 : Fin 2) * 1 + 1 * 0 = 0; omega
    | ⟨1, _⟩ => show win0_2.index t (1 : Fin 2) * 256 + 1 * h.val = h.val; omega
  rw [e, V_b]
  exact shapeCast_apply _ shapeCasts_S256_S1x256 (ix2 (0 : Fin 1) h) (ix1 h) (by
    rw [Shape.rowMajor_val_one, Shape.rowMajor_val_two]
    show h.val = 0 * 256 + h.val
    omega)

/-! ## What each grid point writes back, the cover, and the run -/

set_option maxHeartbeats 3200000 in
/-- What grid point t writes back is block t of the whole-array function of the arguments. -/
theorem flushed_eq (c : Dev nD) (t : Fin cfg0.N) :
    (dats m 0 c).flushed 3 t = ((cfg0.win 3).blk t).view.read (Elt Ideal)
      (Gcn.G (m ((c : Thread nD τ).loc main_arg0)) (m ((c : Thread nD τ).loc main_arg1)) (m ((c : Thread nD τ).loc main_arg2))) := by
  rw [Value.flushed3]
  funext j
  show out0_3 (F := Ideal) (iblk m c 0 t) (iblk m c 1 t) (iblk m c 2 t) j
    = Gcn.G (m ((c : Thread nD τ).loc main_arg0)) (m ((c : Thread nD τ).loc main_arg1)) (m ((c : Thread nD τ).loc main_arg2)) (((cfg0.win 3).blk t).view.emb j)
  refine (canon_block (iblk m c 0 t) (iblk m c 1 t) (iblk m c 2 t) j).trans ?_
  obtain ⟨n, tt, h, rfl⟩ : ∃ (n : Fin 512) (tt : Fin 12) (h : Fin 256), j = ix4 (0 : Fin 1) n tt h :=
    ⟨j 1, j 2, j 3, funext fun a => Fin.ext (by
      match a with
      | ⟨0, _⟩ => show (j 0).val = 0; have : (j 0).val < 1 := (j 0).isLt; omega
      | ⟨1, _⟩ => rfl
      | ⟨2, _⟩ => rfl
      | ⟨3, _⟩ => rfl)⟩
  have he : ((cfg0.win 3).blk t).view.emb (ix4 (0 : Fin 1) n tt h) = ix4 (⟨t.val, lt16 t⟩ : Fin 16) n tt h := by
    obtain ⟨-, -, -, -, e0, e1, e2, e3, -⟩ := idx_facts t
    funext a; apply Fin.ext
    match a with
    | ⟨0, _⟩ => show win0_3.index t (0 : Fin 4) * 1 + 1 * 0 = t.val; omega
    | ⟨1, _⟩ => show win0_3.index t (1 : Fin 4) * 512 + 1 * n.val = n.val; omega
    | ⟨2, _⟩ => show win0_3.index t (2 : Fin 4) * 12 + 1 * tt.val = tt.val; omega
    | ⟨3, _⟩ => show win0_3.index t (3 : Fin 4) * 256 + 1 * h.val = h.val; omega
  rw [he, Gcn.G_apply]
  refine (Gblk_apply (iblk m c 0 t) (k0_pay2 (View.ld (iblk m c 1 t) r0_0)) (k0_pay3 (View.ld (iblk m c 2 t) r0_1)) n tt h).trans ?_
  have h0 : (fun (n : Fin 512) (d : Fin 256) => (iblk m c 0 t : S1x512x12x256.Idx → EReal) (ix4 (0 : Fin 1) n tt d))
      = fun (n : Fin 512) (d : Fin 256) => m ((c : Thread nD τ).loc main_arg0) (ix4 (⟨t.val, lt16 t⟩ : Fin 16) n tt d) :=
    funext fun n => funext fun d => blk0_apply m c t n tt d
  have h1 : (fun (d : Fin 256) (h : Fin 256) => k0_pay2 (F := Ideal) (View.ld (iblk m c 1 t) r0_0) (ix2 d h))
      = fun (d : Fin 256) (h : Fin 256) => m ((c : Thread nD τ).loc main_arg1) (ix2 d h) :=
    funext fun d => funext fun h => w_apply m c t d h
  have h2 : (fun (h : Fin 256) => k0_pay3 (F := Ideal) (View.ld (iblk m c 2 t) r0_1) (ix1 h))
      = fun (h : Fin 256) => m ((c : Thread nD τ).loc main_arg2) (ix1 h) :=
    funext fun h => b_apply m c t h
  rw [h0, h1, h2]

/-- An index of the result is in grid point t's block iff each coordinate is in the block's range on its axis. -/
theorem mem_blk (t : Fin cfg0.N) (i : S16x512x12x256.Idx) :
    i ∈ ((cfg0.win 3).blk t).view.set ↔ ∀ a : Fin 4, win0_3.index t a * S1x512x12x256.size a ≤ (i a).val ∧ (i a).val < win0_3.index t a * S1x512x12x256.size a + S1x512x12x256.size a := by
  show i ∈ ((View.whole main_v2).slice (win0_3.rect t)).set ↔ _
  rw [View.set_slice_whole, Rect.mem_set_unit]
  exact Iff.rfl

/-- Every index of the result is in the block of the grid point its batch coordinate names. -/
theorem cover (i : S16x512x12x256.Idx) : ∃ t : Fin cfg0.N, (cfg0.win 3).flush t = true ∧ i ∈ ((cfg0.win 3).blk t).view.set := by
  have hi0 : (i 0).val < 16 := (i 0).isLt
  have hi1 : (i 1).val < 512 := (i 1).isLt
  have hi2 : (i 2).val < 12 := (i 2).isLt
  have hi3 : (i 3).val < 256 := (i 3).isLt
  obtain ⟨t, ht⟩ : ∃ t : Fin cfg0.N, t.val = (i 0).val := ⟨⟨(i 0).val, by rw [show cfg0.N = 16 from N_0]; exact hi0⟩, rfl⟩
  refine ⟨t, flush0_3 t, ?_⟩
  rw [mem_blk]
  obtain ⟨-, -, -, -, e0, e1, e2, e3, -⟩ := idx_facts t
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 512 ≤ (i 1).val ∧ (i 1).val < win0_3.index t (1 : Fin 4) * 512 + 512; omega
  | ⟨2, _⟩ => show win0_3.index t (2 : Fin 4) * 12 ≤ (i 2).val ∧ (i 2).val < win0_3.index t (2 : Fin 4) * 12 + 12; omega
  | ⟨3, _⟩ => show win0_3.index t (3 : Fin 4) * 256 ≤ (i 3).val ∧ (i 3).val < win0_3.index t (3 : Fin 4) * 256 + 256; omega

/-- The result array after the run is the whole-array function of the arguments. -/
theorem final (c : Dev nD) :
    (dats m 0 c).arrAt 3 cfg0.N
      = Gcn.G (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the idealized kernel terminates with the result at the whole-array function of the
    arguments and the arguments unchanged. -/
theorem run : θ_run defs (onTc (τ := τ) (main (F := Ideal))) ⟨m, fun _ => 0, ρ⟩ fun r => ∀ c : Dev nD,
      r.2.mem ((c : Thread nD τ).loc main_v2)
        = Gcn.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Run

end Cert.KernelIdeal.KerValue

end
-- ==== Proof.RefStep.lean ====
/-
  The reference's time step read at an index. On the slice xi (batch × node × feature), at batch b, node n and output
  feature h, the step's value is the specification's second arrangement (Spec.lean, gcnR) of batch b's node features:
  the host's batched products are sums over the feature or the node axis, its maximum-reduce from minus infinity is
  the row's running maximum, its sum-reduce from zero the row's sum, and every broadcast reads the one entry it
  repeats.
-/
import proofs.«156433_g54185307406482_cont_9to1_m_905_5_alg».proof.Proof.RefOps
import proofs.«156433_g54185307406482_cont_9to1_m_905_5_alg».proof.Proof.Spec
import proofs.«156433_g54185307406482_cont_9to1_m_905_5_alg».proof.Proof.Consts
import Idealize.ShloMosaic.Lib.Pipeline.Value
import Idealize.ShloMosaic.Lib.ValueIdx
import Idealize.ShloMosaic.PureOps.Ideal.Laws

noncomputable section

namespace Cert.ReferenceIdeal.RefStep

open Cert.ReferenceIdeal Cert.ReferenceIdeal.Gen Cert.ReferenceIdeal.RunP Idealize.ShloMosaic Idealize.ShloMosaic.ValueIdx

/-! ## The three batched products, each read at an index as a sum over its contracted axis -/

/-! ### Scores: (b, n, d) · (b, m, d) summed over d -/

theorem dotA_lhs0 (i : S16x512x512.Idx) (q : dot_S16x512x256_S16x512x256_S16x512x512_2_2_1_1_0_0.contr.Idx) : (dot_S16x512x256_S16x512x256_S16x512x512_2_2_1_1_0_0.lhsIdx i q 0).val = (i 0).val := by
  unfold DotDims.lhsIdx
  rw [dif_pos (show (0 : Fin S16x512x256.rank) ∈ dot_S16x512x256_S16x512x256_S16x512x512_2_2_1_1_0_0.lhsBatch by decide)]
  rfl
theorem dotA_lhs1 (i : S16x512x512.Idx) (q : dot_S16x512x256_S16x512x256_S16x512x512_2_2_1_1_0_0.contr.Idx) : (dot_S16x512x256_S16x512x256_S16x512x512_2_2_1_1_0_0.lhsIdx i q 1).val = (i 1).val := by
  unfold DotDims.lhsIdx
  rw [dif_neg (show ¬(1 : Fin S16x512x256.rank) ∈ dot_S16x512x256_S16x512x256_S16x512x512_2_2_1_1_0_0.lhsBatch by decide), dif_pos (show (1 : Fin S16x512x256.rank) ∈ dot_S16x512x256_S16x512x256_S16x512x512_2_2_1_1_0_0.lhsNonContracting by decide)]
  rfl
theorem dotA_lhs2 (i : S16x512x512.Idx) (q : dot_S16x512x256_S16x512x256_S16x512x512_2_2_1_1_0_0.contr.Idx) : (dot_S16x512x256_S16x512x256_S16x512x512_2_2_1_1_0_0.lhsIdx i q 2).val = (q ⟨0, by decide⟩).val :=
  dot_S16x512x256_S16x512x256_S16x512x512_2_2_1_1_0_0.lhsIdx_val_of_single rfl i q
theorem dotA_rhs0 (i : S16x512x512.Idx) (q : dot_S16x512x256_S16x512x256_S16x512x512_2_2_1_1_0_0.contr.Idx) : (dot_S16x512x256_S16x512x256_S16x512x512_2_2_1_1_0_0.rhsIdx i q 0).val = (i 0).val := by
  unfold DotDims.rhsIdx
  rw [dif_pos (show (0 : Fin S16x512x256.rank) ∈ dot_S16x512x256_S16x512x256_S16x512x512_2_2_1_1_0_0.rhsBatch by decide)]
  rfl
theorem dotA_rhs1 (i : S16x512x512.Idx) (q : dot_S16x512x256_S16x512x256_S16x512x512_2_2_1_1_0_0.contr.Idx) : (dot_S16x512x256_S16x512x256_S16x512x512_2_2_1_1_0_0.rhsIdx i q 1).val = (i 2).val := by
  unfold DotDims.rhsIdx
  rw [dif_neg (show ¬(1 : Fin S16x512x256.rank) ∈ dot_S16x512x256_S16x512x256_S16x512x512_2_2_1_1_0_0.rhsBatch by decide), dif_pos (show (1 : Fin S16x512x256.rank) ∈ dot_S16x512x256_S16x512x256_S16x512x512_2_2_1_1_0_0.rhsNonContracting by decide)]
  rfl
theorem dotA_rhs2 (i : S16x512x512.Idx) (q : dot_S16x512x256_S16x512x256_S16x512x512_2_2_1_1_0_0.contr.Idx) : (dot_S16x512x256_S16x512x256_S16x512x512_2_2_1_1_0_0.rhsIdx i q 2).val = (q ⟨0, by decide⟩).val :=
  dot_S16x512x256_S16x512x256_S16x512x512_2_2_1_1_0_0.rhsIdx_val_of_single rfl i q

/-- The scores' product at (b, n, m): the sum over the features of node n's times node m's. -/
theorem dotA_apply (l r : FVec Ideal S16x512x256 .f32) (bb : Fin 16) (n m : Fin 512) :
    Host.dotGeneral dot_S16x512x256_S16x512x256_S16x512x512_2_2_1_1_0_0 none l r (ix3 bb n m) = ∑ k : Fin 256, l (ix3 bb n k) * r (ix3 bb m k) := by
  simp only [Host.dotGeneral]
  rw [Ideal.dotGeneral_apply, ← Equiv.sum_comp (contrEquiv1 dot_S16x512x256_S16x512x256_S16x512x512_2_2_1_1_0_0 256 rfl rfl).symm]
  refine Finset.sum_congr rfl fun k _ => ?_
  have hk := contrEquiv1_symm_val dot_S16x512x256_S16x512x256_S16x512x512_2_2_1_1_0_0 256 rfl rfl k
  have el : dot_S16x512x256_S16x512x256_S16x512x512_2_2_1_1_0_0.lhsIdx (ix3 bb n m) ((contrEquiv1 dot_S16x512x256_S16x512x256_S16x512x512_2_2_1_1_0_0 256 rfl rfl).symm k) = ix3 bb n k := funext fun a => Fin.ext (by
    match a with
    | ⟨0, _⟩ => exact dotA_lhs0 _ _
    | ⟨1, _⟩ => exact dotA_lhs1 _ _
    | ⟨2, _⟩ => exact (dotA_lhs2 _ _).trans hk)
  have er : dot_S16x512x256_S16x512x256_S16x512x512_2_2_1_1_0_0.rhsIdx (ix3 bb n m) ((contrEquiv1 dot_S16x512x256_S16x512x256_S16x512x512_2_2_1_1_0_0 256 rfl rfl).symm k) = ix3 bb m k := funext fun a => Fin.ext (by
    match a with
    | ⟨0, _⟩ => exact dotA_rhs0 _ _
    | ⟨1, _⟩ => exact dotA_rhs1 _ _
    | ⟨2, _⟩ => exact (dotA_rhs2 _ _).trans hk)
  rw [el, er]

/-! ### Aggregation: (b, n, m) · (b, m, d) summed over m -/

theorem dotB_lhs0 (i : S16x512x256.Idx) (q : dot_S16x512x512_S16x512x256_S16x512x256_2_1_1_2_0_0.contr.Idx) : (dot_S16x512x512_S16x512x256_S16x512x256_2_1_1_2_0_0.lhsIdx i q 0).val = (i 0).val := by
  unfold DotDims.lhsIdx
  rw [dif_pos (show (0 : Fin S16x512x512.rank) ∈ dot_S16x512x512_S16x512x256_S16x512x256_2_1_1_2_0_0.lhsBatch by decide)]
  rfl
theorem dotB_lhs1 (i : S16x512x256.Idx) (q : dot_S16x512x512_S16x512x256_S16x512x256_2_1_1_2_0_0.contr.Idx) : (dot_S16x512x512_S16x512x256_S16x512x256_2_1_1_2_0_0.lhsIdx i q 1).val = (i 1).val := by
  unfold DotDims.lhsIdx
  rw [dif_neg (show ¬(1 : Fin S16x512x512.rank) ∈ dot_S16x512x512_S16x512x256_S16x512x256_2_1_1_2_0_0.lhsBatch by decide), dif_pos (show (1 : Fin S16x512x512.rank) ∈ dot_S16x512x512_S16x512x256_S16x512x256_2_1_1_2_0_0.lhsNonContracting by decide)]
  rfl
theorem dotB_lhs2 (i : S16x512x256.Idx) (q : dot_S16x512x512_S16x512x256_S16x512x256_2_1_1_2_0_0.contr.Idx) : (dot_S16x512x512_S16x512x256_S16x512x256_2_1_1_2_0_0.lhsIdx i q 2).val = (q ⟨0, by decide⟩).val :=
  dot_S16x512x512_S16x512x256_S16x512x256_2_1_1_2_0_0.lhsIdx_val_of_single rfl i q
theorem dotB_rhs0 (i : S16x512x256.Idx) (q : dot_S16x512x512_S16x512x256_S16x512x256_2_1_1_2_0_0.contr.Idx) : (dot_S16x512x512_S16x512x256_S16x512x256_2_1_1_2_0_0.rhsIdx i q 0).val = (i 0).val := by
  unfold DotDims.rhsIdx
  rw [dif_pos (show (0 : Fin S16x512x256.rank) ∈ dot_S16x512x512_S16x512x256_S16x512x256_2_1_1_2_0_0.rhsBatch by decide)]
  rfl
theorem dotB_rhs1 (i : S16x512x256.Idx) (q : dot_S16x512x512_S16x512x256_S16x512x256_2_1_1_2_0_0.contr.Idx) : (dot_S16x512x512_S16x512x256_S16x512x256_2_1_1_2_0_0.rhsIdx i q 1).val = (q ⟨0, by decide⟩).val :=
  dot_S16x512x512_S16x512x256_S16x512x256_2_1_1_2_0_0.rhsIdx_val_of_single rfl i q
theorem dotB_rhs2 (i : S16x512x256.Idx) (q : dot_S16x512x512_S16x512x256_S16x512x256_2_1_1_2_0_0.contr.Idx) : (dot_S16x512x512_S16x512x256_S16x512x256_2_1_1_2_0_0.rhsIdx i q 2).val = (i 2).val := by
  unfold DotDims.rhsIdx
  rw [dif_neg (show ¬(2 : Fin S16x512x256.rank) ∈ dot_S16x512x512_S16x512x256_S16x512x256_2_1_1_2_0_0.rhsBatch by decide), dif_pos (show (2 : Fin S16x512x256.rank) ∈ dot_S16x512x512_S16x512x256_S16x512x256_2_1_1_2_0_0.rhsNonContracting by decide)]
  rfl

/-- The aggregation at (b, n, d): the sum over the nodes m of the weight of (n, m) times node m's feature d. -/
theorem dotB_apply (l : FVec Ideal S16x512x512 .f32) (r : FVec Ideal S16x512x256 .f32) (bb : Fin 16) (n : Fin 512) (d : Fin 256) :
    Host.dotGeneral dot_S16x512x512_S16x512x256_S16x512x256_2_1_1_2_0_0 none l r (ix3 bb n d) = ∑ k : Fin 512, l (ix3 bb n k) * r (ix3 bb k d) := by
  simp only [Host.dotGeneral]
  rw [Ideal.dotGeneral_apply, ← Equiv.sum_comp (contrEquiv1 dot_S16x512x512_S16x512x256_S16x512x256_2_1_1_2_0_0 512 rfl rfl).symm]
  refine Finset.sum_congr rfl fun k _ => ?_
  have hk := contrEquiv1_symm_val dot_S16x512x512_S16x512x256_S16x512x256_2_1_1_2_0_0 512 rfl rfl k
  have el : dot_S16x512x512_S16x512x256_S16x512x256_2_1_1_2_0_0.lhsIdx (ix3 bb n d) ((contrEquiv1 dot_S16x512x512_S16x512x256_S16x512x256_2_1_1_2_0_0 512 rfl rfl).symm k) = ix3 bb n k := funext fun a => Fin.ext (by
    match a with
    | ⟨0, _⟩ => exact dotB_lhs0 _ _
    | ⟨1, _⟩ => exact dotB_lhs1 _ _
    | ⟨2, _⟩ => exact (dotB_lhs2 _ _).trans hk)
  have er : dot_S16x512x512_S16x512x256_S16x512x256_2_1_1_2_0_0.rhsIdx (ix3 bb n d) ((contrEquiv1 dot_S16x512x512_S16x512x256_S16x512x256_2_1_1_2_0_0 512 rfl rfl).symm k) = ix3 bb k d := funext fun a => Fin.ext (by
    match a with
    | ⟨0, _⟩ => exact dotB_rhs0 _ _
    | ⟨1, _⟩ => exact (dotB_rhs1 _ _).trans hk
    | ⟨2, _⟩ => exact dotB_rhs2 _ _)
  rw [el, er]

/-! ### The linear layer: (b, n, d) · (d, h) summed over d -/

theorem dotC_lhs0 (i : S16x512x256.Idx) (q : dot_S16x512x256_S256x256_S16x512x256_2_0_01_1_n_n.contr.Idx) : (dot_S16x512x256_S256x256_S16x512x256_2_0_01_1_n_n.lhsIdx i q 0).val = (i 0).val := by
  unfold DotDims.lhsIdx
  rw [dif_neg (show ¬(0 : Fin S16x512x256.rank) ∈ dot_S16x512x256_S256x256_S16x512x256_2_0_01_1_n_n.lhsBatch by decide), dif_pos (show (0 : Fin S16x512x256.rank) ∈ dot_S16x512x256_S256x256_S16x512x256_2_0_01_1_n_n.lhsNonContracting by decide)]
  rfl
theorem dotC_lhs1 (i : S16x512x256.Idx) (q : dot_S16x512x256_S256x256_S16x512x256_2_0_01_1_n_n.contr.Idx) : (dot_S16x512x256_S256x256_S16x512x256_2_0_01_1_n_n.lhsIdx i q 1).val = (i 1).val := by
  unfold DotDims.lhsIdx
  rw [dif_neg (show ¬(1 : Fin S16x512x256.rank) ∈ dot_S16x512x256_S256x256_S16x512x256_2_0_01_1_n_n.lhsBatch by decide), dif_pos (show (1 : Fin S16x512x256.rank) ∈ dot_S16x512x256_S256x256_S16x512x256_2_0_01_1_n_n.lhsNonContracting by decide)]
  rfl
theorem dotC_lhs2 (i : S16x512x256.Idx) (q : dot_S16x512x256_S256x256_S16x512x256_2_0_01_1_n_n.contr.Idx) : (dot_S16x512x256_S256x256_S16x512x256_2_0_01_1_n_n.lhsIdx i q 2).val = (q ⟨0, by decide⟩).val :=
  dot_S16x512x256_S256x256_S16x512x256_2_0_01_1_n_n.lhsIdx_val_of_single rfl i q
theorem dotC_rhs0 (i : S16x512x256.Idx) (q : dot_S16x512x256_S256x256_S16x512x256_2_0_01_1_n_n.contr.Idx) : (dot_S16x512x256_S256x256_S16x512x256_2_0_01_1_n_n.rhsIdx i q 0).val = (q ⟨0, by decide⟩).val :=
  dot_S16x512x256_S256x256_S16x512x256_2_0_01_1_n_n.rhsIdx_val_of_single rfl i q
theorem dotC_rhs1 (i : S16x512x256.Idx) (q : dot_S16x512x256_S256x256_S16x512x256_2_0_01_1_n_n.contr.Idx) : (dot_S16x512x256_S256x256_S16x512x256_2_0_01_1_n_n.rhsIdx i q 1).val = (i 2).val := by
  unfold DotDims.rhsIdx
  rw [dif_neg (show ¬(1 : Fin S256x256.rank) ∈ dot_S16x512x256_S256x256_S16x512x256_2_0_01_1_n_n.rhsBatch by decide), dif_pos (show (1 : Fin S256x256.rank) ∈ dot_S16x512x256_S256x256_S16x512x256_2_0_01_1_n_n.rhsNonContracting by decide)]
  rfl

/-- The linear layer at (b, n, h): the sum over the features d of the aggregated feature times the weight (d, h). -/
theorem dotC_apply (l : FVec Ideal S16x512x256 .f32) (r : FVec Ideal S256x256 .f32) (bb : Fin 16) (n : Fin 512) (h : Fin 256) :
    Host.dotGeneral dot_S16x512x256_S256x256_S16x512x256_2_0_01_1_n_n none l r (ix3 bb n h) = ∑ k : Fin 256, l (ix3 bb n k) * r (ix2 k h) := by
  simp only [Host.dotGeneral]
  rw [Ideal.dotGeneral_apply, ← Equiv.sum_comp (contrEquiv1 dot_S16x512x256_S256x256_S16x512x256_2_0_01_1_n_n 256 rfl rfl).symm]
  refine Finset.sum_congr rfl fun k _ => ?_
  have hk := contrEquiv1_symm_val dot_S16x512x256_S256x256_S16x512x256_2_0_01_1_n_n 256 rfl rfl k
  have el : dot_S16x512x256_S256x256_S16x512x256_2_0_01_1_n_n.lhsIdx (ix3 bb n h) ((contrEquiv1 dot_S16x512x256_S256x256_S16x512x256_2_0_01_1_n_n 256 rfl rfl).symm k) = ix3 bb n k := funext fun a => Fin.ext (by
    match a with
    | ⟨0, _⟩ => exact dotC_lhs0 _ _
    | ⟨1, _⟩ => exact dotC_lhs1 _ _
    | ⟨2, _⟩ => exact (dotC_lhs2 _ _).trans hk)
  have er : dot_S16x512x256_S256x256_S16x512x256_2_0_01_1_n_n.rhsIdx (ix3 bb n h) ((contrEquiv1 dot_S16x512x256_S256x256_S16x512x256_2_0_01_1_n_n 256 rfl rfl).symm k) = ix2 k h := funext fun a => Fin.ext (by
    match a with
    | ⟨0, _⟩ => exact (dotC_rhs0 _ _).trans hk
    | ⟨1, _⟩ => exact dotC_rhs1 _ _)
  rw [el, er]

/-! ## Broadcasts read at an index -/

/-- A broadcast of a rank-zero value reads its one entry everywhere. -/
theorem bcast0_apply {α : Type} {T : Shape} (dims : Fin S_.rank → Fin T.rank) (h : S_.BroadcastsInDim T dims) (x : S_.Idx → α) (j : T.Idx) :
    broadcastInDim T dims h x j = x ix0 :=
  broadcastInDim_apply dims h x j ix0 (fun a => a.elim0)

/-- A per-row value (batch × node) repeated along a new last axis of size 512 reads the row's value. -/
theorem bcastRow_apply {α : Type} (v : S16x512.Idx → α) (bb : Fin 16) (n m : Fin 512) :
    broadcastInDim S16x512x512 (no_index ![0, 1, 2]) bcast_S16x512x1_S16x512x512_0_1_2 (broadcastInDim S16x512x1 (no_index ![0, 1]) bcast_S16x512_S16x512x1_0_1 v) (ix3 bb n m)
      = v (ix2 bb n) := by
  rw [broadcastInDim_apply ![0, 1, 2] bcast_S16x512x1_S16x512x512_0_1_2 _ (ix3 bb n m) (ix3 bb n (0 : Fin 1)) (fun a => match a with
    | ⟨0, _⟩ => by show bb.val = if (16 : Nat) = 1 then 0 else bb.val; rw [if_neg (by decide)]
    | ⟨1, _⟩ => by show n.val = if (512 : Nat) = 1 then 0 else n.val; rw [if_neg (by decide)]
    | ⟨2, _⟩ => by show (0 : Nat) = if (1 : Nat) = 1 then 0 else m.val; rw [if_pos rfl])]
  exact broadcastInDim_apply ![0, 1] bcast_S16x512_S16x512x1_0_1 v (ix3 bb n (0 : Fin 1)) (ix2 bb n) (fun a => match a with
    | ⟨0, _⟩ => by show bb.val = if (16 : Nat) = 1 then 0 else bb.val; rw [if_neg (by decide)]
    | ⟨1, _⟩ => by show n.val = if (512 : Nat) = 1 then 0 else n.val; rw [if_neg (by decide)])

/-- The bias, given two unit axes and repeated over batch and node, reads its entry at the output feature. -/
theorem bcastBias_apply {α : Type} (b : S256.Idx → α) (bb : Fin 16) (n : Fin 512) (h : Fin 256) :
    broadcastInDim S16x512x256 (no_index ![0, 1, 2]) bcast_S1x1x256_S16x512x256_0_1_2 (broadcastInDim S1x1x256 (no_index ![2]) bcast_S256_S1x1x256_2 b) (ix3 bb n h)
      = b (ix1 h) := by
  rw [broadcastInDim_apply ![0, 1, 2] bcast_S1x1x256_S16x512x256_0_1_2 _ (ix3 bb n h) (ix3 (0 : Fin 1) (0 : Fin 1) h) (fun a => match a with
    | ⟨0, _⟩ => by show (0 : Nat) = if (1 : Nat) = 1 then 0 else bb.val; rw [if_pos rfl]
    | ⟨1, _⟩ => by show (0 : Nat) = if (1 : Nat) = 1 then 0 else n.val; rw [if_pos rfl]
    | ⟨2, _⟩ => by show h.val = if (256 : Nat) = 1 then 0 else h.val; rw [if_neg (by decide)])]
  exact broadcastInDim_apply ![2] bcast_S256_S1x1x256_2 b (ix3 (0 : Fin 1) (0 : Fin 1) h) (ix1 h) (fun a => match a with
    | ⟨0, _⟩ => by show h.val = if (256 : Nat) = 1 then 0 else h.val; rw [if_neg (by decide)])

/-! ## The two row reductions -/

/-- Dropping the last axis of batch × node × node leaves batch × node. -/
theorem redRow : S16x512x512.Reduces [2] S16x512 := by decide

/-- The row (b, n) with the coordinate k put back on the reduced axis is (b, n, k). -/
theorem lift_row (bb : Fin 16) (n : Fin 512) (k : Fin (S16x512x512.size 2)) :
    redRow.lift (ix2 bb n) k = ix3 bb n (⟨k.val, k.isLt⟩ : Fin 512) := by
  funext c; apply Fin.ext
  fin_cases c <;> rfl

/-- The row's maximum: the larger of minus infinity and the host's maximum-reduce from minus infinity is the running
    maximum of the row's entries from the bottom of the extended reals. -/
theorem rowMax_apply (sc : FVec Ideal S16x512x512 .f32) (bb : Fin 16) (n : Fin 512) :
    maximumf (broadcastInDim S16x512 (no_index ![]) bcast_S_S16x512 (no_index (constant S_ .f32 0xFF800000#32)))
        (Host.reduce FloatOps.maximumf sc (no_index (constant S_ .f32 0xFF800000#32)) reducesTo_S16x512x512_S16x512_d2 h_S_) (ix2 bb n)
      = (Finset.univ : Finset (Fin 512)).fold max ⊥ (fun m => sc (ix3 bb n m)) := by
  rw [maximumf_apply, bcast0_apply, Host.reduce_eq_fold_single FloatOps.maximumf sc _ reducesTo_S16x512x512_S16x512_d2 redRow h_S_]
  have h1 : ∀ j : S_.Idx, (constant (F := Ideal) S_ .f32 0xFF800000#32) j = ⊥ := fun _ => Consts.ofBits_neg_inf
  rw [h1, h1, max_bot_left]
  have hf : (sc ∘ redRow.lift (ix2 bb n)) = fun k : Fin 512 => sc (ix3 bb n k) := funext fun k => congrArg sc (lift_row bb n k)
  exact congrArg (fun f => Finset.fold max ⊥ f (Finset.univ : Finset (Fin 512))) hf

/-- The row's sum: the host's sum-reduce from zero is the sum of the row's entries. -/
theorem rowSum_apply (e : FVec Ideal S16x512x512 .f32) (bb : Fin 16) (n : Fin 512) :
    Host.reduceAdd e (no_index (constant S_ .f32 0x00000000#32)) reducesTo_S16x512x512_S16x512_d2 h_S_ (ix2 bb n)
      = ∑ m : Fin 512, e (ix3 bb n m) := by
  unfold Host.reduceAdd
  rw [Ideal.hostReduceAdd_def, Ideal.hostReduceAdd_single reducesTo_S16x512x512_S16x512_d2 redRow]
  have h1 : ∀ j : S_.Idx, (constant (F := Ideal) S_ .f32 0x00000000#32) j = 0 := fun _ => Consts.ofBits_zero
  rw [h1, zero_add]
  exact Finset.sum_congr rfl fun k _ => congrArg e (lift_row bb n k)

/-! ## The time step's stages -/

/-- The scores: the nodes' pairwise products over the scale, clipped below at zero. -/
def scT (s : FVec Ideal S_ .f32) (xi : FVec Ideal S16x512x256 .f32) : FVec Ideal S16x512x512 .f32 :=
  maximumf (Host.divf (Host.dotGeneral dot_S16x512x256_S16x512x256_S16x512x512_2_2_1_1_0_0 none xi xi) (broadcastInDim S16x512x512 ![] bcast_S_S16x512x512 s)) (broadcastInDim S16x512x512 ![] bcast_S_S16x512x512 (constant S_ .f32 0x00000000#32))

/-- The rows' maxima. -/
def mxT (sc : FVec Ideal S16x512x512 .f32) : FVec Ideal S16x512 .f32 :=
  maximumf (broadcastInDim S16x512 ![] bcast_S_S16x512 (constant S_ .f32 0xFF800000#32)) (Host.reduce FloatOps.maximumf sc (constant S_ .f32 0xFF800000#32) reducesTo_S16x512x512_S16x512_d2 h_S_)

/-- The exponentials of the scores' differences to their rows' maxima. -/
def eT (sc : FVec Ideal S16x512x512 .f32) : FVec Ideal S16x512x512 .f32 :=
  Host.exp (subf sc (broadcastInDim S16x512x512 ![0, 1, 2] bcast_S16x512x1_S16x512x512_0_1_2 (broadcastInDim S16x512x1 ![0, 1] bcast_S16x512_S16x512x1_0_1 (mxT sc))))

/-- The rows' sums of exponentials. -/
def denT (e : FVec Ideal S16x512x512 .f32) : FVec Ideal S16x512 .f32 :=
  Host.reduceAdd e (constant S_ .f32 0x00000000#32) reducesTo_S16x512x512_S16x512_d2 h_S_

/-- The exponentials over their rows' sums. -/
def aT (e : FVec Ideal S16x512x512 .f32) : FVec Ideal S16x512x512 .f32 :=
  Host.divf e (broadcastInDim S16x512x512 ![0, 1, 2] bcast_S16x512x1_S16x512x512_0_1_2 (broadcastInDim S16x512x1 ![0, 1] bcast_S16x512_S16x512x1_0_1 (denT e)))

/-- The time step is its stages composed: aggregation of the divided exponentials, the linear layer, the bias, the clip. -/
theorem stepFn_eq (s : FVec Ideal S_ .f32) (xi : FVec Ideal S16x512x256 .f32) (w : FVec Ideal S256x256 .f32) (b : FVec Ideal S256 .f32) :
    stepFn (F := Ideal) s xi w b
      = maximumf (addf (Host.dotGeneral dot_S16x512x256_S256x256_S16x512x256_2_0_01_1_n_n none (Host.dotGeneral dot_S16x512x512_S16x512x256_S16x512x256_2_1_1_2_0_0 none (aT (eT (scT s xi))) xi) w)
          (broadcastInDim S16x512x256 ![0, 1, 2] bcast_S1x1x256_S16x512x256_0_1_2 (broadcastInDim S1x1x256 ![2] bcast_S256_S1x1x256_2 b)))
          (broadcastInDim S16x512x256 ![] bcast_S_S16x512x256 (constant S_ .f32 0x00000000#32)) := rfl

theorem scT_apply (s : FVec Ideal S_ .f32) (xi : FVec Ideal S16x512x256 .f32) (bb : Fin 16) (n m : Fin 512) :
    scT s xi (ix3 bb n m) = Gcn.scoreR (s ix0) (fun n d => xi (ix3 bb n d)) n m := by
  unfold scT Gcn.scoreR
  rw [maximumf_apply, bcast0_apply]
  show max (Ideal.div (Host.dotGeneral dot_S16x512x256_S16x512x256_S16x512x512_2_2_1_1_0_0 none xi xi (ix3 bb n m)) (broadcastInDim S16x512x512 ![] bcast_S_S16x512x512 s (ix3 bb n m))) (Ideal.ofBits .f32 0x00000000#32) = _
  rw [dotA_apply, bcast0_apply, Consts.ofBits_zero]

theorem eT_apply (sc : FVec Ideal S16x512x512 .f32) (bb : Fin 16) (n m : Fin 512) :
    eT sc (ix3 bb n m) = Ideal.exp (sc (ix3 bb n m) - mxT sc (ix2 bb n)) := by
  unfold eT
  show Ideal.exp (subf sc _ (ix3 bb n m)) = _
  rw [subf_apply, bcastRow_apply]

theorem aT_apply (e : FVec Ideal S16x512x512 .f32) (bb : Fin 16) (n m : Fin 512) :
    aT e (ix3 bb n m) = Ideal.div (e (ix3 bb n m)) (denT e (ix2 bb n)) := by
  unfold aT
  show Ideal.div (e (ix3 bb n m)) (broadcastInDim S16x512x512 ![0, 1, 2] bcast_S16x512x1_S16x512x512_0_1_2 (broadcastInDim S16x512x1 ![0, 1] bcast_S16x512_S16x512x1_0_1 (denT e)) (ix3 bb n m)) = _
  rw [bcastRow_apply]

/-! ## The time step at an index -/

/-- The reference's time step on the slice xi at (b, n, h): the specification's second arrangement of batch b's
    node features, with the scale's one entry as the divisor. -/
theorem stepFn_apply (s : FVec Ideal S_ .f32) (xi : FVec Ideal S16x512x256 .f32) (w : FVec Ideal S256x256 .f32) (b : FVec Ideal S256 .f32)
    (bb : Fin 16) (n : Fin 512) (h : Fin 256) :
    stepFn (F := Ideal) s xi w b (ix3 bb n h)
      = Gcn.gcnR (s ix0) (fun n d => xi (ix3 bb n d)) (fun d h => w (ix2 d h)) (fun h => b (ix1 h)) n h := by
  have hsc : ∀ n m, scT s xi (ix3 bb n m) = Gcn.scoreR (s ix0) (fun n d => xi (ix3 bb n d)) n m := fun n m => scT_apply s xi bb n m
  have hmx : ∀ n, mxT (scT s xi) (ix2 bb n) = Gcn.rowMax (Gcn.scoreR (s ix0) (fun n d => xi (ix3 bb n d))) n := by
    intro n
    unfold mxT Gcn.rowMax
    rw [rowMax_apply]
    simp only [hsc]
  have he : ∀ n m, eT (scT s xi) (ix3 bb n m) = Gcn.expo (Gcn.scoreR (s ix0) (fun n d => xi (ix3 bb n d))) n m := by
    intro n m
    rw [eT_apply, hsc, hmx]
    unfold Gcn.expo
    with_reducible rfl
  have hden : ∀ n, denT (eT (scT s xi)) (ix2 bb n) = Gcn.rowSum (Gcn.scoreR (s ix0) (fun n d => xi (ix3 bb n d))) n := by
    intro n
    unfold denT Gcn.rowSum
    rw [rowSum_apply]
    simp only [he]
  have ha : ∀ n m, aT (eT (scT s xi)) (ix3 bb n m)
      = Ideal.div (Gcn.expo (Gcn.scoreR (s ix0) (fun n d => xi (ix3 bb n d))) n m) (Gcn.rowSum (Gcn.scoreR (s ix0) (fun n d => xi (ix3 bb n d))) n) := by
    intro n m
    rw [aT_apply, he, hden]
  rw [stepFn_eq, maximumf_apply, addf_apply, dotC_apply, bcastBias_apply, bcast0_apply]
  simp only [dotB_apply, ha]
  unfold Gcn.gcnR Gcn.layer Gcn.aggR
  show max _ (Ideal.ofBits .f32 0x00000000#32) = _
  rw [Consts.ofBits_zero]

end Cert.ReferenceIdeal.RefStep

end
-- ==== Proof.RefValue.lean ====
/-
  The reference's result as ONE function of its arguments. The result array joins the twelve time steps' results along
  the time axis, so at (b, n, t, h) it is time step t's result at (b, n, h): the specification's second arrangement
  of batch b's node features at time t, with the square root of 256, which is 16, as the divisor. On real features
  that is the whole-array function G (Spec.lean), by the agreement of the two arrangements.
-/
import proofs.«156433_g54185307406482_cont_9to1_m_905_5_alg».proof.Proof.RefRun
import proofs.«156433_g54185307406482_cont_9to1_m_905_5_alg».proof.Proof.RefStep

noncomputable section

namespace Cert.ReferenceIdeal.RefValue

open Cert.ReferenceIdeal Cert.ReferenceIdeal.Gen Cert.ReferenceIdeal.RunP Cert.ReferenceIdeal.RefStep Idealize.ShloMosaic Idealize.ShloMosaic.ValueIdx

/-! ## The time slices at an index -/

/-- The slice at time t, reshaped to batch × node × feature, reads the argument at (b, n, t, d). -/
theorem slice_gen (t : Fin 12) (hs : S16x512x12x256.Slices ![0, 0, t.val, 0] S16x512x1x256) (x0 : FVec Ideal S16x512x12x256 .f32)
    (bb : Fin 16) (n : Fin 512) (d : Fin 256) :
    shapeCast S16x512x256 (extractStridedSlice S16x512x1x256 ![0, 0, t.val, 0] x0 hs) shapeCasts_S16x512x1x256_S16x512x256 (ix3 bb n d)
      = x0 (ix4 bb n t d) := by
  rw [shapeCast_apply _ shapeCasts_S16x512x1x256_S16x512x256 (ix3 bb n d) (ix4 bb n (0 : Fin 1) d) (by
    rw [Shape.rowMajor_val_four, Shape.rowMajor_val_three]
    show ((bb.val * 512 + n.val) * 1 + 0) * 256 + d.val = (bb.val * 512 + n.val) * 256 + d.val
    omega)]
  exact extractStridedSlice_apply ![0, 0, t.val, 0] x0 hs (ix4 bb n (0 : Fin 1) d) (ix4 bb n t d) (fun a => match a with
    | ⟨0, _⟩ => by show bb.val = 0 + bb.val; omega
    | ⟨1, _⟩ => by show n.val = 0 + n.val; omega
    | ⟨2, _⟩ => by show t.val = t.val + 0; omega
    | ⟨3, _⟩ => by show d.val = 0 + d.val; omega)

theorem slice0_apply (x0 : FVec Ideal S16x512x12x256 .f32) (bb : Fin 16) (n : Fin 512) (d : Fin 256) :
    slice0 (F := Ideal) x0 (ix3 bb n d) = x0 (ix4 bb n (0 : Fin 12) d) := slice_gen 0 _ x0 bb n d
theorem slice1_apply (x0 : FVec Ideal S16x512x12x256 .f32) (bb : Fin 16) (n : Fin 512) (d : Fin 256) :
    slice1 (F := Ideal) x0 (ix3 bb n d) = x0 (ix4 bb n (1 : Fin 12) d) := slice_gen 1 _ x0 bb n d
theorem slice2_apply (x0 : FVec Ideal S16x512x12x256 .f32) (bb : Fin 16) (n : Fin 512) (d : Fin 256) :
    slice2 (F := Ideal) x0 (ix3 bb n d) = x0 (ix4 bb n (2 : Fin 12) d) := slice_gen 2 _ x0 bb n d
theorem slice3_apply (x0 : FVec Ideal S16x512x12x256 .f32) (bb : Fin 16) (n : Fin 512) (d : Fin 256) :
    slice3 (F := Ideal) x0 (ix3 bb n d) = x0 (ix4 bb n (3 : Fin 12) d) := slice_gen 3 _ x0 bb n d
theorem slice4_apply (x0 : FVec Ideal S16x512x12x256 .f32) (bb : Fin 16) (n : Fin 512) (d : Fin 256) :
    slice4 (F := Ideal) x0 (ix3 bb n d) = x0 (ix4 bb n (4 : Fin 12) d) := slice_gen 4 _ x0 bb n d
theorem slice5_apply (x0 : FVec Ideal S16x512x12x256 .f32) (bb : Fin 16) (n : Fin 512) (d : Fin 256) :
    slice5 (F := Ideal) x0 (ix3 bb n d) = x0 (ix4 bb n (5 : Fin 12) d) := slice_gen 5 _ x0 bb n d
theorem slice6_apply (x0 : FVec Ideal S16x512x12x256 .f32) (bb : Fin 16) (n : Fin 512) (d : Fin 256) :
    slice6 (F := Ideal) x0 (ix3 bb n d) = x0 (ix4 bb n (6 : Fin 12) d) := slice_gen 6 _ x0 bb n d
theorem slice7_apply (x0 : FVec Ideal S16x512x12x256 .f32) (bb : Fin 16) (n : Fin 512) (d : Fin 256) :
    slice7 (F := Ideal) x0 (ix3 bb n d) = x0 (ix4 bb n (7 : Fin 12) d) := slice_gen 7 _ x0 bb n d
theorem slice8_apply (x0 : FVec Ideal S16x512x12x256 .f32) (bb : Fin 16) (n : Fin 512) (d : Fin 256) :
    slice8 (F := Ideal) x0 (ix3 bb n d) = x0 (ix4 bb n (8 : Fin 12) d) := slice_gen 8 _ x0 bb n d
theorem slice9_apply (x0 : FVec Ideal S16x512x12x256 .f32) (bb : Fin 16) (n : Fin 512) (d : Fin 256) :
    slice9 (F := Ideal) x0 (ix3 bb n d) = x0 (ix4 bb n (9 : Fin 12) d) := slice_gen 9 _ x0 bb n d
theorem slice10_apply (x0 : FVec Ideal S16x512x12x256 .f32) (bb : Fin 16) (n : Fin 512) (d : Fin 256) :
    slice10 (F := Ideal) x0 (ix3 bb n d) = x0 (ix4 bb n (10 : Fin 12) d) := slice_gen 10 _ x0 bb n d
theorem slice11_apply (x0 : FVec Ideal S16x512x12x256 .f32) (bb : Fin 16) (n : Fin 512) (d : Fin 256) :
    slice11 (F := Ideal) x0 (ix3 bb n d) = x0 (ix4 bb n (11 : Fin 12) d) := slice_gen 11 _ x0 bb n d

/-! ## The join read at an index -/

/-- A join along the time axis of pieces of unit time extent, read at time t: piece t at the same batch, node and
    feature. -/
theorem pieceAt {α : Type} (xs : List ((s : Shape) × (s.Idx → α))) (hc : Shape.Concatenates (xs.map (·.1)) S16x512x12x256 2)
    (t : Fin 12) (hk : t.val < xs.length) (g : S16x512x1x256.Idx → α) (hxk : xs[t.val] = ⟨S16x512x1x256, g⟩)
    (hpre : (((xs.take t.val).map (·.1)).map fun s => if h : s.rank = S16x512x12x256.rank then s.size ((2 : Fin S16x512x12x256.rank).cast h.symm) else 0).sum = t.val)
    (bb : Fin 16) (n : Fin 512) (h : Fin 256) :
    concatenate S16x512x12x256 2 xs hc (ix4 bb n t h) = g (ix4 bb n (0 : Fin 1) h) :=
  concatenate_apply_piece 2 xs hc (ix4 bb n t h) t.val hk S16x512x1x256 g hxk rfl t.val hpre (ix4 bb n (0 : Fin 1) h)
    (fun b hb => match b, hb with
      | ⟨0, _⟩, _ => rfl
      | ⟨1, _⟩, _ => rfl
      | ⟨2, _⟩, hb => absurd rfl hb
      | ⟨3, _⟩, _ => rfl)
    (by show t.val + 0 = t.val; omega)

/-- One piece of the join: a time step's result given a unit time axis, read at (b, n, 0, h), is the second
    arrangement of the slice's batch b with divisor 16. -/
theorem pieceVal (xi : FVec Ideal S16x512x256 .f32) (w : FVec Ideal S256x256 .f32) (b : FVec Ideal S256 .f32)
    (bb : Fin 16) (n : Fin 512) (h : Fin 256) :
    broadcastInDim S16x512x1x256 ![0, 1, 3] bcast_S16x512x256_S16x512x1x256_0_1_3 (stepFn (F := Ideal) scale xi w b) (ix4 bb n (0 : Fin 1) h)
      = Gcn.gcnR ((16 : ℝ) : EReal) (fun n d => xi (ix3 bb n d)) (fun d h => w (ix2 d h)) (fun h => b (ix1 h)) n h := by
  rw [broadcastInDim_apply ![0, 1, 3] bcast_S16x512x256_S16x512x1x256_0_1_3 _ (ix4 bb n (0 : Fin 1) h) (ix3 bb n h) (fun a => match a with
    | ⟨0, _⟩ => by show bb.val = if (16 : Nat) = 1 then 0 else bb.val; rw [if_neg (by decide)]
    | ⟨1, _⟩ => by show n.val = if (512 : Nat) = 1 then 0 else n.val; rw [if_neg (by decide)]
    | ⟨2, _⟩ => by show h.val = if (256 : Nat) = 1 then 0 else h.val; rw [if_neg (by decide)]),
    stepFn_apply]
  have hs : (scale (F := Ideal)) ix0 = ((16 : ℝ) : EReal) := by
    show Ideal.sqrt (Ideal.ofBits .f32 0x43800000#32) = _
    rw [Consts.ofBits_256, Consts.sqrt_256]
  rw [hs]

theorem out_at0 (x0 : FVec Ideal S16x512x12x256 .f32) (x1 : FVec Ideal S256x256 .f32) (x2 : FVec Ideal S256 .f32) (bb : Fin 16) (n : Fin 512) (h : Fin 256) :
    out (F := Ideal) x0 x1 x2 (ix4 bb n (0 : Fin 12) h)
      = Gcn.gcnR ((16 : ℝ) : EReal) (fun n d => x0 (ix4 bb n (0 : Fin 12) d)) (fun d h => x1 (ix2 d h)) (fun h => x2 (ix1 h)) n h := by
  unfold out
  refine (pieceAt _ _ 0 (by show (0 : Nat) < 12; decide) _ rfl rfl bb n h).trans ?_
  rw [pieceVal]
  simp only [slice0_apply]
theorem out_at1 (x0 : FVec Ideal S16x512x12x256 .f32) (x1 : FVec Ideal S256x256 .f32) (x2 : FVec Ideal S256 .f32) (bb : Fin 16) (n : Fin 512) (h : Fin 256) :
    out (F := Ideal) x0 x1 x2 (ix4 bb n (1 : Fin 12) h)
      = Gcn.gcnR ((16 : ℝ) : EReal) (fun n d => x0 (ix4 bb n (1 : Fin 12) d)) (fun d h => x1 (ix2 d h)) (fun h => x2 (ix1 h)) n h := by
  unfold out
  refine (pieceAt _ _ 1 (by show (1 : Nat) < 12; decide) _ rfl rfl bb n h).trans ?_
  rw [pieceVal]
  simp only [slice1_apply]
theorem out_at2 (x0 : FVec Ideal S16x512x12x256 .f32) (x1 : FVec Ideal S256x256 .f32) (x2 : FVec Ideal S256 .f32) (bb : Fin 16) (n : Fin 512) (h : Fin 256) :
    out (F := Ideal) x0 x1 x2 (ix4 bb n (2 : Fin 12) h)
      = Gcn.gcnR ((16 : ℝ) : EReal) (fun n d => x0 (ix4 bb n (2 : Fin 12) d)) (fun d h => x1 (ix2 d h)) (fun h => x2 (ix1 h)) n h := by
  unfold out
  refine (pieceAt _ _ 2 (by show (2 : Nat) < 12; decide) _ rfl rfl bb n h).trans ?_
  rw [pieceVal]
  simp only [slice2_apply]
theorem out_at3 (x0 : FVec Ideal S16x512x12x256 .f32) (x1 : FVec Ideal S256x256 .f32) (x2 : FVec Ideal S256 .f32) (bb : Fin 16) (n : Fin 512) (h : Fin 256) :
    out (F := Ideal) x0 x1 x2 (ix4 bb n (3 : Fin 12) h)
      = Gcn.gcnR ((16 : ℝ) : EReal) (fun n d => x0 (ix4 bb n (3 : Fin 12) d)) (fun d h => x1 (ix2 d h)) (fun h => x2 (ix1 h)) n h := by
  unfold out
  refine (pieceAt _ _ 3 (by show (3 : Nat) < 12; decide) _ rfl rfl bb n h).trans ?_
  rw [pieceVal]
  simp only [slice3_apply]
theorem out_at4 (x0 : FVec Ideal S16x512x12x256 .f32) (x1 : FVec Ideal S256x256 .f32) (x2 : FVec Ideal S256 .f32) (bb : Fin 16) (n : Fin 512) (h : Fin 256) :
    out (F := Ideal) x0 x1 x2 (ix4 bb n (4 : Fin 12) h)
      = Gcn.gcnR ((16 : ℝ) : EReal) (fun n d => x0 (ix4 bb n (4 : Fin 12) d)) (fun d h => x1 (ix2 d h)) (fun h => x2 (ix1 h)) n h := by
  unfold out
  refine (pieceAt _ _ 4 (by show (4 : Nat) < 12; decide) _ rfl rfl bb n h).trans ?_
  rw [pieceVal]
  simp only [slice4_apply]
theorem out_at5 (x0 : FVec Ideal S16x512x12x256 .f32) (x1 : FVec Ideal S256x256 .f32) (x2 : FVec Ideal S256 .f32) (bb : Fin 16) (n : Fin 512) (h : Fin 256) :
    out (F := Ideal) x0 x1 x2 (ix4 bb n (5 : Fin 12) h)
      = Gcn.gcnR ((16 : ℝ) : EReal) (fun n d => x0 (ix4 bb n (5 : Fin 12) d)) (fun d h => x1 (ix2 d h)) (fun h => x2 (ix1 h)) n h := by
  unfold out
  refine (pieceAt _ _ 5 (by show (5 : Nat) < 12; decide) _ rfl rfl bb n h).trans ?_
  rw [pieceVal]
  simp only [slice5_apply]
theorem out_at6 (x0 : FVec Ideal S16x512x12x256 .f32) (x1 : FVec Ideal S256x256 .f32) (x2 : FVec Ideal S256 .f32) (bb : Fin 16) (n : Fin 512) (h : Fin 256) :
    out (F := Ideal) x0 x1 x2 (ix4 bb n (6 : Fin 12) h)
      = Gcn.gcnR ((16 : ℝ) : EReal) (fun n d => x0 (ix4 bb n (6 : Fin 12) d)) (fun d h => x1 (ix2 d h)) (fun h => x2 (ix1 h)) n h := by
  unfold out
  refine (pieceAt _ _ 6 (by show (6 : Nat) < 12; decide) _ rfl rfl bb n h).trans ?_
  rw [pieceVal]
  simp only [slice6_apply]
theorem out_at7 (x0 : FVec Ideal S16x512x12x256 .f32) (x1 : FVec Ideal S256x256 .f32) (x2 : FVec Ideal S256 .f32) (bb : Fin 16) (n : Fin 512) (h : Fin 256) :
    out (F := Ideal) x0 x1 x2 (ix4 bb n (7 : Fin 12) h)
      = Gcn.gcnR ((16 : ℝ) : EReal) (fun n d => x0 (ix4 bb n (7 : Fin 12) d)) (fun d h => x1 (ix2 d h)) (fun h => x2 (ix1 h)) n h := by
  unfold out
  refine (pieceAt _ _ 7 (by show (7 : Nat) < 12; decide) _ rfl rfl bb n h).trans ?_
  rw [pieceVal]
  simp only [slice7_apply]
theorem out_at8 (x0 : FVec Ideal S16x512x12x256 .f32) (x1 : FVec Ideal S256x256 .f32) (x2 : FVec Ideal S256 .f32) (bb : Fin 16) (n : Fin 512) (h : Fin 256) :
    out (F := Ideal) x0 x1 x2 (ix4 bb n (8 : Fin 12) h)
      = Gcn.gcnR ((16 : ℝ) : EReal) (fun n d => x0 (ix4 bb n (8 : Fin 12) d)) (fun d h => x1 (ix2 d h)) (fun h => x2 (ix1 h)) n h := by
  unfold out
  refine (pieceAt _ _ 8 (by show (8 : Nat) < 12; decide) _ rfl rfl bb n h).trans ?_
  rw [pieceVal]
  simp only [slice8_apply]
theorem out_at9 (x0 : FVec Ideal S16x512x12x256 .f32) (x1 : FVec Ideal S256x256 .f32) (x2 : FVec Ideal S256 .f32) (bb : Fin 16) (n : Fin 512) (h : Fin 256) :
    out (F := Ideal) x0 x1 x2 (ix4 bb n (9 : Fin 12) h)
      = Gcn.gcnR ((16 : ℝ) : EReal) (fun n d => x0 (ix4 bb n (9 : Fin 12) d)) (fun d h => x1 (ix2 d h)) (fun h => x2 (ix1 h)) n h := by
  unfold out
  refine (pieceAt _ _ 9 (by show (9 : Nat) < 12; decide) _ rfl rfl bb n h).trans ?_
  rw [pieceVal]
  simp only [slice9_apply]
theorem out_at10 (x0 : FVec Ideal S16x512x12x256 .f32) (x1 : FVec Ideal S256x256 .f32) (x2 : FVec Ideal S256 .f32) (bb : Fin 16) (n : Fin 512) (h : Fin 256) :
    out (F := Ideal) x0 x1 x2 (ix4 bb n (10 : Fin 12) h)
      = Gcn.gcnR ((16 : ℝ) : EReal) (fun n d => x0 (ix4 bb n (10 : Fin 12) d)) (fun d h => x1 (ix2 d h)) (fun h => x2 (ix1 h)) n h := by
  unfold out
  refine (pieceAt _ _ 10 (by show (10 : Nat) < 12; decide) _ rfl rfl bb n h).trans ?_
  rw [pieceVal]
  simp only [slice10_apply]
theorem out_at11 (x0 : FVec Ideal S16x512x12x256 .f32) (x1 : FVec Ideal S256x256 .f32) (x2 : FVec Ideal S256 .f32) (bb : Fin 16) (n : Fin 512) (h : Fin 256) :
    out (F := Ideal) x0 x1 x2 (ix4 bb n (11 : Fin 12) h)
      = Gcn.gcnR ((16 : ℝ) : EReal) (fun n d => x0 (ix4 bb n (11 : Fin 12) d)) (fun d h => x1 (ix2 d h)) (fun h => x2 (ix1 h)) n h := by
  unfold out
  refine (pieceAt _ _ 11 (by show (11 : Nat) < 12; decide) _ rfl rfl bb n h).trans ?_
  rw [pieceVal]
  simp only [slice11_apply]

/-- The reference's result at (b, n, t, h): the second arrangement of batch b's node features at time t. -/
theorem out_apply (x0 : FVec Ideal S16x512x12x256 .f32) (x1 : FVec Ideal S256x256 .f32) (x2 : FVec Ideal S256 .f32)
    (bb : Fin 16) (n : Fin 512) (t : Fin 12) (h : Fin 256) :
    out (F := Ideal) x0 x1 x2 (ix4 bb n t h)
      = Gcn.gcnR ((16 : ℝ) : EReal) (fun n d => x0 (ix4 bb n t d)) (fun d h => x1 (ix2 d h)) (fun h => x2 (ix1 h)) n h :=
  match t with
  | ⟨0, _⟩ => out_at0 x0 x1 x2 bb n h
  | ⟨1, _⟩ => out_at1 x0 x1 x2 bb n h
  | ⟨2, _⟩ => out_at2 x0 x1 x2 bb n h
  | ⟨3, _⟩ => out_at3 x0 x1 x2 bb n h
  | ⟨4, _⟩ => out_at4 x0 x1 x2 bb n h
  | ⟨5, _⟩ => out_at5 x0 x1 x2 bb n h
  | ⟨6, _⟩ => out_at6 x0 x1 x2 bb n h
  | ⟨7, _⟩ => out_at7 x0 x1 x2 bb n h
  | ⟨8, _⟩ => out_at8 x0 x1 x2 bb n h
  | ⟨9, _⟩ => out_at9 x0 x1 x2 bb n h
  | ⟨10, _⟩ => out_at10 x0 x1 x2 bb n h
  | ⟨11, _⟩ => out_at11 x0 x1 x2 bb n h
  | ⟨k + 12, hk⟩ => absurd hk (by omega)

/-- On real features the reference's result is the whole-array function G of its arguments. -/
theorem out_eq_G (xr : S16x512x12x256.Idx → ℝ) (x1 : FVec Ideal S256x256 .f32) (x2 : FVec Ideal S256 .f32) :
    out (F := Ideal) (fun i => ((xr i : ℝ) : EReal)) x1 x2 = Gcn.G (fun i => ((xr i : ℝ) : EReal)) x1 x2 := by
  funext i
  obtain ⟨bb, n, t, h, rfl⟩ : ∃ (bb : Fin 16) (n : Fin 512) (t : Fin 12) (h : Fin 256), i = ix4 bb n t h :=
    ⟨i 0, i 1, i 2, i 3, eq_ix4 i⟩
  rw [out_apply, Gcn.G_apply]
  exact (congrFun (congrFun (Gcn.gcn_eq (fun n d => xr (ix4 bb n t d)) (fun d h => x1 (ix2 d h)) (fun h => x2 (ix1 h))) n) h).symm

end Cert.ReferenceIdeal.RefValue

end
-- ==== Proof.Finite.lean ====
/-
  Finite inputs are real. The precondition states, for each float argument, that every entry's absolute value is
  below plus infinity. An extended real with that property is neither infinity, hence a real number. Only the first
  argument's reals are needed: the law joining the two programs moves a factor through sums of products of its
  entries, which needs those entries real; the weights and the bias enter both programs in the same place.
-/
import proofs.«156433_g54185307406482_cont_9to1_m_905_5_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

/-- The rank-zero shape has one index. -/
instance : Subsingleton S_.Idx := ⟨fun a b => funext fun d => d.elim0⟩

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; revert h; simp [Ideal.cmp]
  | top => exfalso; revert h; simp [Ideal.cmp]
  | coe r => exact ⟨r, rfl⟩

/-- Under the precondition every entry of the first argument is a real number. -/
theorem arg0_real [Facts] (a0 : FVec Ideal S16x512x12x256 .f32) (a1 : FVec Ideal S256x256 .f32) (a2 : FVec Ideal S256 .f32)
    (h : fn (F := Ideal) a0 a1 a2 = fun _ => 1#1) (i : S16x512x12x256.Idx) : ∃ r : ℝ, a0 i = (r : EReal) := by
  have h0 := congrFun h ValueIdx.ix0
  dsimp only [fn] at h0
  have h1 := (IntOp.andi_eq_one.1 h0).1
  have h2 := (IntOp.andi_eq_one.1 h1).1
  have h3 := Host.reduce_andi_all _ _ _ _ _ h2 i
  exact real_of_abs_lt (a0 i) h3

end Cert.Pre_finite_inputs.Finite

end
-- ==== Proof.lean ====
/-
  The certificate of a fused graph-convolution kernel against its jnp reference, over the extended reals.

  Both programs compute, for every batch b and time t, on the node features X = x[b, :, t, :] (512 nodes, 256 features):
    S = max (X Xᵀ / 16) 0,  E = exp (S - rowmax S),  out = max ((diag (rowsum E)⁻¹ E X) W + bias) 0.
  The kernel scales one operand of the first product by the bf16 literal 1/16 (exact: 16 is the square root of 256, which
  the reference computes and divides by) and divides the aggregated rows by the rows' sums; the reference divides the
  product by 16 and divides every exponential by its row's sum before aggregating. With every feature a real number —
  which the precondition gives — the two are one function: a real factor moves through a finite sum of reals, each
  row's maximum is one of its entries, so each exponential is a positive real and each row's sum a nonzero real.

  Modules: Spec (the two arrangements and their agreement on real features; the whole-array function G), Consts (the
  four float literals), KerStep and KerValue (the kernel's body is the first arrangement; its sixteen blocks make G),
  RefOps and RefRun (the reference's run), RefStep and RefValue (the reference's time step is the second arrangement; its
  join over time is G on real features), Finite (finite inputs are real).
-/
import proofs.«156433_g54185307406482_cont_9to1_m_905_5_alg».proof.Defs
import proofs.«156433_g54185307406482_cont_9to1_m_905_5_alg».proof.Proof.Gen.Kernel
import proofs.«156433_g54185307406482_cont_9to1_m_905_5_alg».proof.Proof.Gen.Kernel.Frame
import proofs.«156433_g54185307406482_cont_9to1_m_905_5_alg».proof.Proof.Gen.KernelIdeal
import proofs.«156433_g54185307406482_cont_9to1_m_905_5_alg».proof.Proof.Gen.KernelIdeal.Frame
import proofs.«156433_g54185307406482_cont_9to1_m_905_5_alg».proof.Proof.Gen.ReferenceIdeal
import proofs.«156433_g54185307406482_cont_9to1_m_905_5_alg».proof.Proof.Gen.Pre_finite_inputs
import proofs.«156433_g54185307406482_cont_9to1_m_905_5_alg».proof.Proof.KerValue
import proofs.«156433_g54185307406482_cont_9to1_m_905_5_alg».proof.Proof.RefValue
import proofs.«156433_g54185307406482_cont_9to1_m_905_5_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- From memories agreeing on the arguments, with finite arguments, both idealized programs end with the whole-array
    function G of the arguments in their result: the kernel by its blocks, the reference because the first argument's
    entries are reals, on which its arrangement of each time step is the kernel's. -/
theorem algebraic : Cert.algebraic_KernelIdeal_ReferenceIdeal := by
  intro m ρ m' ρ' hpre hagree
  have hreal : ∀ (c : Dev Cert.KernelIdeal.nD) (i : Cert.KernelIdeal.S16x512x12x256.Idx),
      ∃ r : ℝ, m ((c.tc : Thread Cert.KernelIdeal.nD Cert.KernelIdeal.τ).loc Cert.KernelIdeal.main_arg0) i = (r : EReal) :=
    fun c i => Cert.Pre_finite_inputs.Finite.arg0_real _ _ _ (hpre c) i
  choose xr hxr using hreal
  refine ⟨fun c => Cert.Gcn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2]
  beta_reduce
  have hx : m ((c.tc : Thread Cert.KernelIdeal.nD Cert.KernelIdeal.τ).loc Cert.KernelIdeal.main_arg0) = fun i => ((xr c i : ℝ) : EReal) :=
    funext (hxr c)
  rw [hx]
  exact Cert.ReferenceIdeal.RefValue.out_eq_G (xr c) _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
